-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x40x7 : Shape := ⟨3, ![262144, 40, 7]⟩
abbrev S262144x5 : Shape := ⟨2, ![262144, 5]⟩
abbrev S262144x128 : Shape := ⟨2, ![262144, 128]⟩
abbrev S128x100 : Shape := ⟨2, ![128, 100]⟩
abbrev S100 : Shape := ⟨1, ![100]⟩
abbrev S100x40 : Shape := ⟨2, ![100, 40]⟩
abbrev S40 : Shape := ⟨1, ![40]⟩
abbrev S_ : Shape := ⟨0, ![]⟩

class Facts : Prop where
  bcast_S_S262144x40x7 : S_.BroadcastsInDim S262144x40x7 (![] : Fin 0 → Fin S262144x40x7.rank)
  reducesTo_S262144x40x7_S_d0_1_2 : S262144x40x7.ReducesTo [0, 1, 2] S_
  h_S_ : 0 < S_.numel
  bcast_S_S262144x5 : S_.BroadcastsInDim S262144x5 (![] : Fin 0 → Fin S262144x5.rank)
  reducesTo_S262144x5_S_d0_1 : S262144x5.ReducesTo [0, 1] S_
  bcast_S_S262144x128 : S_.BroadcastsInDim S262144x128 (![] : Fin 0 → Fin S262144x128.rank)
  reducesTo_S262144x128_S_d0_1 : S262144x128.ReducesTo [0, 1] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x40 : S_.BroadcastsInDim S100x40 (![] : Fin 0 → Fin S100x40.rank)
  reducesTo_S100x40_S_d0_1 : S100x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S100 .f32) (main_arg5 : FVec F S100x40 .f32) (main_arg6 : FVec F S40 .f32) (main_v13 : IVec S_ 1) (main_v16 : IVec S128x100 1) : IVec S_ 1 :=
  let main_c_5 : IVec S_ 1 := constantI S_ 1 1#1
  let main_v17 : IVec S_ 1 := (fun x v => Host.reduce IntOp.andi x v reducesTo_S128x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x40 .f32 := Host.absf main_arg5
  let main_cst_8 : FVec F S_ .f32 := constant S_ .f32 0x7F800000#32
  let main_v25 : FVec F S100x40 .f32 := broadcastInDim S100x40 ![] bcast_S_S100x40 main_cst_8
  let main_v26 : IVec S100x40 1 := cmpf .olt main_v24 main_v25
  let main_c_9 : IVec S_ 1 := constantI S_ 1 1#1
  let main_v27 : IVec S_ 1 := (fun x v => Host.reduce IntOp.andi x v reducesTo_S100x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S262144x40x7 .f32) (main_arg1 : FVec F S262144x5 .f32) (main_arg2 : FVec F S262144x128 .f32) (main_arg3 : FVec F S128x100 .f32) (main_arg4 : FVec F S100 .f32) (main_arg5 : FVec F S100x40 .f32) (main_arg6 : FVec F S40 .f32) : IVec S_ 1 :=
  let main_v0 : FVec F S262144x40x7 .f32 := Host.absf main_arg0
  let main_cst : FVec F S_ .f32 := constant S_ .f32 0x7F800000#32
  let main_v1 : FVec F S262144x40x7 .f32 := broadcastInDim S262144x40x7 ![] bcast_S_S262144x40x7 main_cst
  let main_v2 : IVec S262144x40x7 1 := cmpf .olt main_v0 main_v1
  let main_c : IVec S_ 1 := constantI S_ 1 1#1
  let main_v3 : IVec S_ 1 := (fun x v => Host.reduce IntOp.andi x v reducesTo_S262144x40x7_S_d0_1_2 h_S_) main_v2 main_c
  let main_v4 : FVec F S262144x5 .f32 := Host.absf main_arg1
  let main_cst_0 : FVec F S_ .f32 := constant S_ .f32 0x7F800000#32
  let main_v5 : FVec F S262144x5 .f32 := broadcastInDim S262144x5 ![] bcast_S_S262144x5 main_cst_0
  let main_v6 : IVec S262144x5 1 := cmpf .olt main_v4 main_v5
  let main_c_1 : IVec S_ 1 := constantI S_ 1 1#1
  let main_v7 : IVec S_ 1 := (fun x v => Host.reduce IntOp.andi x v reducesTo_S262144x5_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x100 .f32 := Host.absf main_arg3
  let main_cst_4 : FVec F S_ .f32 := constant S_ .f32 0x7F800000#32
  let main_v15 : FVec F S128x100 .f32 := broadcastInDim S128x100 ![] bcast_S_S128x100 main_cst_4
  let main_v16 : IVec S128x100 1 := cmpf .olt main_v14 main_v15
  fn_part1 (F := F) main_arg4 main_arg5 main_arg6 main_v13 main_v16
-- ==== Kernel.lean ====
abbrev S262144x40x7 : Shape := ⟨3, ![262144, 40, 7]⟩
abbrev S262144x5 : Shape := ⟨2, ![262144, 5]⟩
abbrev S262144x128 : Shape := ⟨2, ![262144, 128]⟩
abbrev S128x100 : Shape := ⟨2, ![128, 100]⟩
abbrev S100 : Shape := ⟨1, ![100]⟩
abbrev S100x40 : Shape := ⟨2, ![100, 40]⟩
abbrev S40 : Shape := ⟨1, ![40]⟩
abbrev S262144x40x1 : Shape := ⟨3, ![262144, 40, 1]⟩
abbrev S262144x40 : Shape := ⟨2, ![262144, 40]⟩
abbrev S262144x1x40 : Shape := ⟨3, ![262144, 1, 40]⟩
abbrev S262144x5x40 : Shape := ⟨3, ![262144, 5, 40]⟩
abbrev S262144x200 : Shape := ⟨2, ![262144, 200]⟩
abbrev S1x100 : Shape := ⟨2, ![1, 100]⟩
abbrev S1x40 : Shape := ⟨2, ![1, 40]⟩
abbrev S4096x200 : Shape := ⟨2, ![4096, 200]⟩
abbrev S4096x5 : Shape := ⟨2, ![4096, 5]⟩
abbrev S4096x128 : Shape := ⟨2, ![4096, 128]⟩
abbrev S4096x40 : Shape := ⟨2, ![4096, 40]⟩
abbrev S4096x1 : Shape := ⟨2, ![4096, 1]⟩
abbrev S4096x100 : Shape := ⟨2, ![4096, 100]⟩

abbrev nBuf : Space → Nat
  | .hbm => 30
  | .vmem => 14
  | .smem => 0
  | _ => 0

abbrev bufTy : (tb : Table) → Fin (tcTables nBuf tb) → BufTy
  | .hbm, ⟨0, _⟩ => ⟨S262144x40x7, .f32⟩
  | .hbm, ⟨1, _⟩ => ⟨S262144x5, .f32⟩
  | .hbm, ⟨2, _⟩ => ⟨S262144x128, .f32⟩
  | .hbm, ⟨3, _⟩ => ⟨S128x100, .f32⟩
  | .hbm, ⟨4, _⟩ => ⟨S100, .f32⟩
  | .hbm, ⟨5, _⟩ => ⟨S100x40, .f32⟩
  | .hbm, ⟨6, _⟩ => ⟨S40, .f32⟩
  | .hbm, ⟨7, _⟩ => ⟨S262144x40x1, .f32⟩
  | .hbm, ⟨8, _⟩ => ⟨S262144x40, .f32⟩
  | .hbm, ⟨9, _⟩ => ⟨S262144x40x1, .f32⟩
  | .hbm, ⟨10, _⟩ => ⟨S262144x40, .f32⟩
  | .hbm, ⟨11, _⟩ => ⟨S262144x40x1, .f32⟩
  | .hbm, ⟨12, _⟩ => ⟨S262144x40, .f32⟩
  | .hbm, ⟨13, _⟩ => ⟨S262144x40x1, .f32⟩
  | .hbm, ⟨14, _⟩ => ⟨S262144x40, .f32⟩
  | .hbm, ⟨15, _⟩ => ⟨S262144x40x1, .f32⟩
  | .hbm, ⟨16, _⟩ => ⟨S262144x40, .f32⟩
  | .hbm, ⟨17, _⟩ => ⟨S262144x1x40, .f32⟩
  | .hbm, ⟨18, _⟩ => ⟨S262144x1x40, .f32⟩
  | .hbm, ⟨19, _⟩ => ⟨S262144x1x40, .f32⟩
  | .hbm, ⟨20, _⟩ => ⟨S262144x1x40, .f32⟩
  | .hbm, ⟨21, _⟩ => ⟨S262144x1x40, .f32⟩
  | .hbm, ⟨22, _⟩ => ⟨S262144x5x40, .f32⟩
  | .hbm, ⟨23, _⟩ => ⟨S262144x200, .f32⟩
  | .hbm, ⟨24, _⟩ => ⟨S1x100, .f32⟩
  | .hbm, ⟨25, _⟩ => ⟨S1x40, .f32⟩
  | .hbm, ⟨26, _⟩ => ⟨S262144x40, .f32⟩
  | .hbm, ⟨27, _⟩ => ⟨S262144x40, .f32⟩
  | .hbm, ⟨28, _⟩ => ⟨S262144x40x1, .f32⟩
  | .hbm, ⟨29, _⟩ => ⟨S262144x40x1, .f32⟩
  | .local _ .vmem, ⟨0, _⟩ => ⟨S4096x200, .f32⟩
  | .local _ .vmem, ⟨1, _⟩ => ⟨S4096x200, .f32⟩
  | .local _ .vmem, ⟨2, _⟩ => ⟨S4096x5, .f32⟩
  | .local _ .vmem, ⟨3, _⟩ => ⟨S4096x5, .f32⟩
  | .local _ .vmem, ⟨4, _⟩ => ⟨S4096x128, .f32⟩
  | .local _ .vmem, ⟨5, _⟩ => ⟨S4096x128, .f32⟩
  | .local _ .vmem, ⟨6, _⟩ => ⟨S128x100, .f32⟩
  | .local _ .vmem, ⟨7, _⟩ => ⟨S1x100, .f32⟩
  | .local _ .vmem, ⟨8, _⟩ => ⟨S100x40, .f32⟩
  | .local _ .vmem, ⟨9, _⟩ => ⟨S1x40, .f32⟩
  | .local _ .vmem, ⟨10, _⟩ => ⟨S4096x40, .f32⟩
  | .local _ .vmem, ⟨11, _⟩ => ⟨S4096x40, .f32⟩
  | .local _ .vmem, ⟨12, _⟩ => ⟨S4096x40, .f32⟩
  | .local _ .vmem, ⟨13, _⟩ => ⟨S4096x40, .f32⟩
  | _, _ => ⟨S262144x40x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S262144x40x7_S262144x40x1_0_0_0 : S262144x40x7.Slices ![0, 0, 0] S262144x40x1
  shapeCasts_S262144x40x1_S262144x40 : S262144x40x1.ShapeCasts S262144x40
  slices_S262144x40x7_S262144x40x1_0_0_2 : S262144x40x7.Slices ![0, 0, 2] S262144x40x1
  slices_S262144x40x7_S262144x40x1_0_0_3 : S262144x40x7.Slices ![0, 0, 3] S262144x40x1
  slices_S262144x40x7_S262144x40x1_0_0_5 : S262144x40x7.Slices ![0, 0, 5] S262144x40x1
  slices_S262144x40x7_S262144x40x1_0_0_6 : S262144x40x7.Slices ![0, 0, 6] S262144x40x1
  bcast_S262144x40_S262144x1x40_0_2 : S262144x40.BroadcastsInDim S262144x1x40 (![0, 2] : Fin 2 → Fin S262144x1x40.rank)
  concatenates_S262144x1x40_S262144x1x40_S262144x1x40_S262144x1x40_S262144x1x40_S262144x5x40_d1 : Shape.Concatenates [S262144x1x40, S262144x1x40, S262144x1x40, S262144x1x40, S262144x1x40] S262144x5x40 1
  shapeCasts_S262144x5x40_S262144x200 : S262144x5x40.ShapeCasts S262144x200
  shapeCasts_S100_S1x100 : S100.ShapeCasts S1x100
  shapeCasts_S40_S1x40 : S40.ShapeCasts S1x40
  inb_S4096x200_S4096x40_0_0 : ∀ a, (![0, 0] : Fin 2 → Nat) a + S4096x40.size a ≤ S4096x200.size a
  h_S4096x40 : 0 < S4096x40.numel
  shapeCasts_S4096x40_S4096x40 : S4096x40.ShapeCasts S4096x40
  inb_S4096x200_S4096x40_0_40 : ∀ a, (![0, 40] : Fin 2 → Nat) a + S4096x40.size a ≤ S4096x200.size a
  inb_S4096x200_S4096x40_0_80 : ∀ a, (![0, 80] : Fin 2 → Nat) a + S4096x40.size a ≤ S4096x200.size a
  inb_S4096x200_S4096x40_0_120 : ∀ a, (![0, 120] : Fin 2 → Nat) a + S4096x40.size a ≤ S4096x200.size a
  inb_S4096x200_S4096x40_0_160 : ∀ a, (![0, 160] : Fin 2 → Nat) a + S4096x40.size a ≤ S4096x200.size a
  inb_S4096x5_S4096x1_0_0 : ∀ a, (![0, 0] : Fin 2 → Nat) a + S4096x1.size a ≤ S4096x5.size a
  h_S4096x1 : 0 < S4096x1.numel
  inb_S4096x5_S4096x1_0_1 : ∀ a, (![0, 1] : Fin 2 → Nat) a + S4096x1.size a ≤ S4096x5.size a
  inb_S4096x5_S4096x1_0_2 : ∀ a, (![0, 2] : Fin 2 → Nat) a + S4096x1.size a ≤ S4096x5.size a
  inb_S4096x5_S4096x1_0_3 : ∀ a, (![0, 3] : Fin 2 → Nat) a + S4096x1.size a ≤ S4096x5.size a
  inb_S4096x5_S4096x1_0_4 : ∀ a, (![0, 4] : Fin 2 → Nat) a + S4096x1.size a ≤ S4096x5.size a
  broadcasts_S4096x1_S4096x40 : S4096x1.Broadcasts S4096x40
  inb_S4096x128_S4096x128_0_0 : ∀ a, (![0, 0] : Fin 2 → Nat) a + S4096x128.size a ≤ S4096x128.size a
  h_S4096x128 : 0 < S4096x128.numel
  inb_S128x100_S128x100_0_0 : ∀ a, (![0, 0] : Fin 2 → Nat) a + S128x100.size a ≤ S128x100.size a
  h_S128x100 : 0 < S128x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4096x100 : S1x100.Broadcasts S4096x100
  inb_S100x40_S100x40_0_0 : ∀ a, (![0, 0] : Fin 2 → Nat) a + S100x40.size a ≤ S100x40.size a
  h_S100x40 : 0 < S100x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  inb_S4096x40_S4096x40_0_0 : ∀ a, (![0, 0] : Fin 2 → Nat) a + S4096x40.size a ≤ S4096x40.size a
  bcast_S262144x40_S262144x40x1_0_1 : S262144x40.BroadcastsInDim S262144x40x1 (![0, 1] : Fin 2 → Fin S262144x40x1.rank)
  dot_S4096x128_S128x100_S4096x100_1_0_0_1_n_n_wf : DotDims.WF S4096x128 S128x100 S4096x100 [1] [0] [0] [1] [] []
  dot_S4096x100_S100x40_S4096x40_1_0_0_1_n_n_wf : DotDims.WF S4096x100 S100x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x200.size a ≤ S262144x200.size a
  hwx0_0 : ∀ i : grid0.Coords, EltTy.bits .f32 = 32 ∨ (Rect.block (s := S262144x200) S4096x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x5.size a ≤ S262144x5.size a
  hwx0_1 : ∀ i : grid0.Coords, EltTy.bits .f32 = 32 ∨ (Rect.block (s := S262144x5) S4096x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x100.size a ≤ S128x100.size a
  hwx0_3 : ∀ i : grid0.Coords, EltTy.bits .f32 = 32 ∨ (Rect.block (s := S128x100) S128x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x40.size a ≤ S100x40.size a
  hwx0_5 : ∀ i : grid0.Coords, EltTy.bits .f32 = 32 ∨ (Rect.block (s := S100x40) S100x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x40.size a ≤ S262144x40.size a
  hwx0_7 : ∀ i : grid0.Coords, EltTy.bits .f32 = 32 ∨ (Rect.block (s := S262144x40) S4096x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x40.size a ≤ S262144x40.size a
  hwx0_8 : ∀ i : grid0.Coords, EltTy.bits .f32 = 32 ∨ (Rect.block (s := S262144x40) S4096x40.size (cc0_transform_8 i) (hinb0_8 i)).WholeWords (EltTy.packing .f32)

variable [Facts₀]

def dot_S4096x128_S128x100_S4096x100_1_0_0_1_n_n : DotDims S4096x128 S128x100 S4096x100 where
  lhsContracting := [1]
  rhsContracting := [0]
  lhsNonContracting := [0]
  rhsNonContracting := [1]
  lhsBatch := []
  rhsBatch := []
  wf := dot_S4096x128_S128x100_S4096x100_1_0_0_1_n_n_wf
def dot_S4096x100_S100x40_S4096x40_1_0_0_1_n_n : DotDims S4096x100 S100x40 S4096x40 where
  lhsContracting := [1]
  rhsContracting := [0]
  lhsNonContracting := [0]
  rhsNonContracting := [1]
  lhsBatch := []
  rhsBatch := []
  wf := dot_S4096x100_S100x40_S4096x40_1_0_0_1_n_n_wf

abbrev win0_0 : Pipeline.Window sig grid0 :=
  Pipeline.Window.ofSpec (Memref.whole main_v16) S4096x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S4096x40.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S4096x40.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x40x7 : Shape := ⟨3, ![262144, 40, 7]⟩
abbrev S262144x5 : Shape := ⟨2, ![262144, 5]⟩
abbrev S262144x128 : Shape := ⟨2, ![262144, 128]⟩
abbrev S128x100 : Shape := ⟨2, ![128, 100]⟩
abbrev S100 : Shape := ⟨1, ![100]⟩
abbrev S100x40 : Shape := ⟨2, ![100, 40]⟩
abbrev S40 : Shape := ⟨1, ![40]⟩
abbrev S262144x40x1 : Shape := ⟨3, ![262144, 40, 1]⟩
abbrev S262144x1x5 : Shape := ⟨3, ![262144, 1, 5]⟩
abbrev S262144x1x1 : Shape := ⟨3, ![262144, 1, 1]⟩
abbrev S_ : Shape := ⟨0, ![]⟩
abbrev S262144x100 : Shape := ⟨2, ![262144, 100]⟩
abbrev S1x100 : Shape := ⟨2, ![1, 100]⟩
abbrev S262144x40 : Shape := ⟨2, ![262144, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S262144x40x7, .f32⟩
  | .hbm, ⟨1, _⟩ => ⟨S262144x5, .f32⟩
  | .hbm, ⟨2, _⟩ => ⟨S262144x128, .f32⟩
  | .hbm, ⟨3, _⟩ => ⟨S128x100, .f32⟩
  | .hbm, ⟨4, _⟩ => ⟨S100, .f32⟩
  | .hbm, ⟨5, _⟩ => ⟨S100x40, .f32⟩
  | .hbm, ⟨6, _⟩ => ⟨S40, .f32⟩
  | .hbm, ⟨7, _⟩ => ⟨S262144x40x1, .f32⟩
  | .hbm, ⟨8, _⟩ => ⟨S262144x40x1, .f32⟩
  | .hbm, ⟨9, _⟩ => ⟨S262144x40x1, .f32⟩
  | .hbm, ⟨10, _⟩ => ⟨S262144x1x5, .f32⟩
  | .hbm, ⟨11, _⟩ => ⟨S262144x1x1, .f32⟩
  | .hbm, ⟨12, _⟩ => ⟨S262144x1x1, .f32⟩
  | .hbm, ⟨13, _⟩ => ⟨S262144x1x1, .f32⟩
  | .hbm, ⟨14, _⟩ => ⟨S262144x1x1, .f32⟩
  | .hbm, ⟨15, _⟩ => ⟨S262144x1x1, .f32⟩
  | .hbm, ⟨16, _⟩ => ⟨S262144x40x1, .f32⟩
  | .hbm, ⟨17, _⟩ => ⟨S262144x40x1, .f32⟩
  | .hbm, ⟨18, _⟩ => ⟨S262144x40x1, .f32⟩
  | .hbm, ⟨19, _⟩ => ⟨S262144x40x1, .f32⟩
  | .hbm, ⟨20, _⟩ => ⟨S262144x40x1, .f32⟩
  | .hbm, ⟨21, _⟩ => ⟨S262144x1x1, .f32⟩
  | .hbm, ⟨22, _⟩ => ⟨S262144x1x1, .f32⟩
  | .hbm, ⟨23, _⟩ => ⟨S_, .f32⟩
  | .hbm, ⟨24, _⟩ => ⟨S262144x1x1, .f32⟩
  | .hbm, ⟨25, _⟩ => ⟨S262144x1x1, .f32⟩
  | .hbm, ⟨26, _⟩ => ⟨S262144x40x1, .f32⟩
  | .hbm, ⟨27, _⟩ => ⟨S262144x40x1, .f32⟩
  | .hbm, ⟨28, _⟩ => ⟨S262144x40x1, .f32⟩
  | .hbm, ⟨29, _⟩ => ⟨S262144x40x1, .f32⟩
  | .hbm, ⟨30, _⟩ => ⟨S262144x40x1, .f32⟩
  | .hbm, ⟨31, _⟩ => ⟨S262144x40x1, .f32⟩
  | .hbm, ⟨32, _⟩ => ⟨S262144x40x1, .f32⟩
  | .hbm, ⟨33, _⟩ => ⟨S_, .f32⟩
  | .hbm, ⟨34, _⟩ => ⟨S262144x40x1, .f32⟩
  | .hbm, ⟨35, _⟩ => ⟨S262144x40x1, .f32⟩
  | .hbm, ⟨36, _⟩ => ⟨S262144x40x1, .f32⟩
  | .hbm, ⟨37, _⟩ => ⟨S262144x40x1, .f32⟩
  | .hbm, ⟨38, _⟩ => ⟨S262144x40x1, .f32⟩
  | .hbm, ⟨39, _⟩ => ⟨S262144x40x1, .f32⟩
  | .hbm, ⟨40, _⟩ => ⟨S262144x40x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S262144x40x1, .f32⟩
  | .hbm, ⟨45, _⟩ => ⟨S262144x40x1, .f32⟩
  | .hbm, ⟨46, _⟩ => ⟨S_, .f32⟩
  | .hbm, ⟨47, _⟩ => ⟨S262144x40x1, .f32⟩
  | .hbm, ⟨48, _⟩ => ⟨S262144x40x1, .f32⟩
  | .hbm, ⟨49, _⟩ => ⟨S262144x40x1, .f32⟩
  | .hbm, ⟨50, _⟩ => ⟨S262144x40x1, .f32⟩
  | .hbm, ⟨51, _⟩ => ⟨S262144x1x5, .f32⟩
  | .hbm, ⟨52, _⟩ => ⟨S262144x1x1, .f32⟩
  | .hbm, ⟨53, _⟩ => ⟨S262144x1x1, .f32⟩
  | .hbm, ⟨54, _⟩ => ⟨S262144x1x1, .f32⟩
  | .hbm, ⟨55, _⟩ => ⟨S262144x1x1, .f32⟩
  | .hbm, ⟨56, _⟩ => ⟨S262144x1x1, .f32⟩
  | .hbm, ⟨57, _⟩ => ⟨S262144x40x1, .f32⟩
  | .hbm, ⟨58, _⟩ => ⟨S262144x40x1, .f32⟩
  | .hbm, ⟨59, _⟩ => ⟨S262144x40x1, .f32⟩
  | .hbm, ⟨60, _⟩ => ⟨S262144x40x1, .f32⟩
  | .hbm, ⟨61, _⟩ => ⟨S262144x40x1, .f32⟩
  | .hbm, ⟨62, _⟩ => ⟨S262144x1x1, .f32⟩
  | .hbm, ⟨63, _⟩ => ⟨S262144x1x1, .f32⟩
  | .hbm, ⟨64, _⟩ => ⟨S_, .f32⟩
  | .hbm, ⟨65, _⟩ => ⟨S262144x1x1, .f32⟩
  | .hbm, ⟨66, _⟩ => ⟨S262144x1x1, .f32⟩
  | .hbm, ⟨67, _⟩ => ⟨S262144x40x1, .f32⟩
  | .hbm, ⟨68, _⟩ => ⟨S262144x40x1, .f32⟩
  | .hbm, ⟨69, _⟩ => ⟨S262144x40x1, .f32⟩
  | .hbm, ⟨70, _⟩ => ⟨S262144x40x1, .f32⟩
  | .hbm, ⟨71, _⟩ => ⟨S262144x40x1, .f32⟩
  | .hbm, ⟨72, _⟩ => ⟨S262144x40x1, .f32⟩
  | .hbm, ⟨73, _⟩ => ⟨S262144x40x1, .f32⟩
  | .hbm, ⟨74, _⟩ => ⟨S_, .f32⟩
  | .hbm, ⟨75, _⟩ => ⟨S262144x40x1, .f32⟩
  | .hbm, ⟨76, _⟩ => ⟨S262144x40x1, .f32⟩
  | .hbm, ⟨77, _⟩ => ⟨S262144x40x1, .f32⟩
  | .hbm, ⟨78, _⟩ => ⟨S262144x40x1, .f32⟩
  | .hbm, ⟨79, _⟩ => ⟨S262144x40x1, .f32⟩
  | .hbm, ⟨80, _⟩ => ⟨S262144x40x1, .f32⟩
  | .hbm, ⟨81, _⟩ => ⟨S262144x40x1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S262144x40x1, .f32⟩
  | .hbm, ⟨86, _⟩ => ⟨S262144x40x1, .f32⟩
  | .hbm, ⟨87, _⟩ => ⟨S_, .f32⟩
  | .hbm, ⟨88, _⟩ => ⟨S262144x40x1, .f32⟩
  | .hbm, ⟨89, _⟩ => ⟨S262144x40x1, .f32⟩
  | .hbm, ⟨90, _⟩ => ⟨S262144x100, .f32⟩
  | .hbm, ⟨91, _⟩ => ⟨S1x100, .f32⟩
  | .hbm, ⟨92, _⟩ => ⟨S262144x100, .f32⟩
  | .hbm, ⟨93, _⟩ => ⟨S262144x100, .f32⟩
  | .hbm, ⟨94, _⟩ => ⟨S262144x40, .f32⟩
  | .hbm, ⟨95, _⟩ => ⟨S1x40, .f32⟩
  | .hbm, ⟨96, _⟩ => ⟨S262144x40, .f32⟩
  | .hbm, ⟨97, _⟩ => ⟨S262144x40, .f32⟩
  | .hbm, ⟨98, _⟩ => ⟨S_, .f32⟩
  | .hbm, ⟨99, _⟩ => ⟨S262144x40, .f32⟩
  | .hbm, ⟨100, _⟩ => ⟨S262144x40, .f32⟩
  | .hbm, ⟨101, _⟩ => ⟨S262144x40, .f32⟩
  | .hbm, ⟨102, _⟩ => ⟨S262144x40, .f32⟩
  | .hbm, ⟨103, _⟩ => ⟨S_, .f32⟩
  | .hbm, ⟨104, _⟩ => ⟨S262144x40, .f32⟩
  | .hbm, ⟨105, _⟩ => ⟨S262144x40, .f32⟩
  | .hbm, ⟨106, _⟩ => ⟨S_, .f32⟩
  | .hbm, ⟨107, _⟩ => ⟨S262144x40, .f32⟩
  | .hbm, ⟨108, _⟩ => ⟨S262144x40, .f32⟩
  | .hbm, ⟨109, _⟩ => ⟨S262144x40x1, .f32⟩
  | .hbm, ⟨110, _⟩ => ⟨S262144x40x1, .f32⟩
  | .hbm, ⟨111, _⟩ => ⟨S_, .f32⟩
  | .hbm, ⟨112, _⟩ => ⟨S262144x40x1, .f32⟩
  | .hbm, ⟨113, _⟩ => ⟨S262144x40x1, .f32⟩
  | .hbm, ⟨114, _⟩ => ⟨S262144x40x1, .f32⟩
  | .hbm, ⟨115, _⟩ => ⟨S262144x40x1, .f32⟩
  | _, _ => ⟨S262144x40x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_cst_6 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_8 : Ref sig .tc := ⟨.hbm, 103, rfl⟩
abbrev main_v77 : Ref sig .tc := ⟨.hbm, 104, rfl⟩
abbrev main_v78 : Ref sig .tc := ⟨.hbm, 105, rfl⟩
abbrev main_cst_9 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S262144x40x7_S262144x40x1_0_0_0 : S262144x40x7.Slices ![0, 0, 0] S262144x40x1
  slices_S262144x40x7_S262144x40x1_0_0_2 : S262144x40x7.Slices ![0, 0, 2] S262144x40x1
  slices_S262144x40x7_S262144x40x1_0_0_3 : S262144x40x7.Slices ![0, 0, 3] S262144x40x1
  bcast_S262144x5_S262144x1x5_0_2 : S262144x5.BroadcastsInDim S262144x1x5 (![0, 2] : Fin 2 → Fin S262144x1x5.rank)
  slices_S262144x1x5_S262144x1x1_0_0_0 : S262144x1x5.Slices ![0, 0, 0] S262144x1x1
  slices_S262144x1x5_S262144x1x1_0_0_1 : S262144x1x5.Slices ![0, 0, 1] S262144x1x1
  slices_S262144x1x5_S262144x1x1_0_0_2 : S262144x1x5.Slices ![0, 0, 2] S262144x1x1
  slices_S262144x1x5_S262144x1x1_0_0_3 : S262144x1x5.Slices ![0, 0, 3] S262144x1x1
  slices_S262144x1x5_S262144x1x1_0_0_4 : S262144x1x5.Slices ![0, 0, 4] S262144x1x1
  bcast_S262144x1x1_S262144x40x1_0_1_2 : S262144x1x1.BroadcastsInDim S262144x40x1 (![0, 1, 2] : Fin 3 → Fin S262144x40x1.rank)
  bcast_S_S262144x1x1 : S_.BroadcastsInDim S262144x1x1 (![] : Fin 0 → Fin S262144x1x1.rank)
  bcast_S_S262144x40x1 : S_.BroadcastsInDim S262144x40x1 (![] : Fin 0 → Fin S262144x40x1.rank)
  slices_S262144x40x7_S262144x40x1_0_0_5 : S262144x40x7.Slices ![0, 0, 5] S262144x40x1
  slices_S262144x40x7_S262144x40x1_0_0_6 : S262144x40x7.Slices ![0, 0, 6] S262144x40x1
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  bcast_S40_S1x40_1 : S40.BroadcastsInDim S1x40 (![1] : Fin 1 → Fin S1x40.rank)
  bcast_S1x40_S262144x40_0_1 : S1x40.BroadcastsInDim S262144x40 (![0, 1] : Fin 2 → Fin S262144x40.rank)
  bcast_S_S262144x40 : S_.BroadcastsInDim S262144x40 (![] : Fin 0 → Fin S262144x40.rank)
  shapeCasts_S262144x40_S262144x40x1 : S262144x40.ShapeCasts S262144x40x1
  dot_S262144x128_S128x100_S262144x100_1_0_0_1_n_n_wf : DotDims.WF S262144x128 S128x100 S262144x100 [1] [0] [0] [1] [] []
  dot_S262144x100_S100x40_S262144x40_1_0_0_1_n_n_wf : DotDims.WF S262144x100 S100x40 S262144x40 [1] [0] [0] [1] [] []

variable [Facts₀]

def dot_S262144x128_S128x100_S262144x100_1_0_0_1_n_n : DotDims S262144x128 S128x100 S262144x100 where
  lhsContracting := [1]
  rhsContracting := [0]
  lhsNonContracting := [0]
  rhsNonContracting := [1]
  lhsBatch := []
  rhsBatch := []
  wf := dot_S262144x128_S128x100_S262144x100_1_0_0_1_n_n_wf
def dot_S262144x100_S100x40_S262144x40_1_0_0_1_n_n : DotDims S262144x100 S100x40 S262144x40 where
  lhsContracting := [1]
  rhsContracting := [0]
  lhsNonContracting := [0]
  rhsNonContracting := [1]
  lhsBatch := []
  rhsBatch := []
  wf := dot_S262144x100_S100x40_S262144x40_1_0_0_1_n_n_wf

class Facts : Prop extends Facts₀ where

variable [Facts]
-- ==== Proof.BitsEntry.lean ====
/-
  The kernel's program around its one pipelined region: nineteen host operations that lay the five state channels
  the driver model reads (speed; closing speed and gap to the leader; closing speed and gap to the merging vehicle)
  side by side, one run of forty positions per channel, and reshape the two bias vectors to rows; the region over a
  grid of 64 blocks of 4096 samples; two host operations that give each result a trailing axis of extent one.

  Stated here, for any float instance: what every buffer holds when the region is entered (`entry`: the host
  operations' fold over the launch memory), that the program is those operations, the region, and the two later
  operations (`hmain`); that no host operation before the region writes an argument (`entry_argK`); what block of its
  array each window stages at a grid point (`blockAt`), and that an input window's staging buffer holds exactly that
  block at every point, fetched there or left from the point before (`found_W`); that the two later operations touch
  no array of the pipeline; and how the seven arguments' final contents are read off a run of the whole program
  (`kept_of`): an argument a window stages is an input array, unchanged; one that bypasses the region is written by
  no operation after it either.
-/
import proofs.«412750_j77360950935639_3_alg».proof.Proof.Gen.Kernel.Launch
import proofs.«412750_j77360950935639_3_alg».proof.Proof.Gen.Kernel.Points
import Idealize.ShloMosaic.Lib.Pipeline.FrameSuffix
import Idealize.ShloMosaic.Lib.Pipeline.FrameBody

set_option maxRecDepth 16384

noncomputable section

namespace Cert.Kernel.Staged

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ) (ρ : Dev nD → PrngReg)

/-! ## The program around the region -/

/-- Every buffer of core `c` when the region is entered: the nineteen host operations folded over the launch memory. -/
abbrev entry (c : Dev nD) : Valuation τ sig (Elt F) := StableHlo.after (List.flatten [hostOps0]) (fun b => m (c, b))
/-- The same, read at a reference of the core. -/
abbrev entryAt (c : Dev nD) (b : Ref sig .tc) : Buf (Elt F) ((c : Thread nD τ).loc b) := entry m c (Proc.devRef .tc b)

/-- No host operation before the region allocates a buffer, -/
theorem prefix_fresh : (hostOps0 : List (HloOp τ sig (Elt F))).Forall fun op => op.fresh = ∅ := by
  simp only [List.Forall]; repeat' constructor
/-- and neither of the two after it does. -/
theorem suffix_fresh : (hostOps1 : List (HloOp τ sig (Elt F))).Forall fun op => op.fresh = ∅ := by
  simp only [List.Forall]; repeat' constructor

/-- The program is its host operations, the region, and the two later operations: holding every buffer at its launch
    contents it reduces to the region entered at `entry`, continued by the later operations. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-! ## The arguments as the region finds them -/

/-- Argument 0 is written by no host operation before the region. -/
theorem entry_arg0 (c : Dev nD) : entryAt m c main_arg0 = m ((c : Thread nD τ).loc main_arg0) := by
  show StableHlo.after hostOps0 (fun b => m (c, b)) (Proc.devRef .tc main_arg0) = _
  after_results
/-- Argument 1 is written by no host operation before the region. -/
theorem entry_arg1 (c : Dev nD) : entryAt m c main_arg1 = m ((c : Thread nD τ).loc main_arg1) := by
  show StableHlo.after hostOps0 (fun b => m (c, b)) (Proc.devRef .tc main_arg1) = _
  after_results
/-- Argument 2 is written by no host operation before the region. -/
theorem entry_arg2 (c : Dev nD) : entryAt m c main_arg2 = m ((c : Thread nD τ).loc main_arg2) := by
  show StableHlo.after hostOps0 (fun b => m (c, b)) (Proc.devRef .tc main_arg2) = _
  after_results
/-- Argument 3 is written by no host operation before the region. -/
theorem entry_arg3 (c : Dev nD) : entryAt m c main_arg3 = m ((c : Thread nD τ).loc main_arg3) := by
  show StableHlo.after hostOps0 (fun b => m (c, b)) (Proc.devRef .tc main_arg3) = _
  after_results
/-- Argument 4 is written by no host operation before the region. -/
theorem entry_arg4 (c : Dev nD) : entryAt m c main_arg4 = m ((c : Thread nD τ).loc main_arg4) := by
  show StableHlo.after hostOps0 (fun b => m (c, b)) (Proc.devRef .tc main_arg4) = _
  after_results
/-- Argument 5 is written by no host operation before the region. -/
theorem entry_arg5 (c : Dev nD) : entryAt m c main_arg5 = m ((c : Thread nD τ).loc main_arg5) := by
  show StableHlo.after hostOps0 (fun b => m (c, b)) (Proc.devRef .tc main_arg5) = _
  after_results
/-- Argument 6 is written by no host operation before the region. -/
theorem entry_arg6 (c : Dev nD) : entryAt m c main_arg6 = m ((c : Thread nD τ).loc main_arg6) := by
  show StableHlo.after hostOps0 (fun b => m (c, b)) (Proc.devRef .tc main_arg6) = _
  after_results

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's staging buffer holds its block at every point — fetched there, or, where the block index has
    not moved, left from the point before — for any proof data whose array is the region's and whose body leaves the
    block in place. -/
theorem found_0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point — fetched there, or, where the block index has
    not moved, left from the point before — for any proof data whose array is the region's and whose body leaves the
    block in place. -/
theorem found_1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point — fetched there, or, where the block index has
    not moved, left from the point before — for any proof data whose array is the region's and whose body leaves the
    block in place. -/
theorem found_2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point — fetched there, or, where the block index has
    not moved, left from the point before — for any proof data whose array is the region's and whose body leaves the
    block in place. -/
theorem found_3 {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point — fetched there, or, where the block index has
    not moved, left from the point before — for any proof data whose array is the region's and whose body leaves the
    block in place. -/
theorem found_4 {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point — fetched there, or, where the block index has
    not moved, left from the point before — for any proof data whose array is the region's and whose body leaves the
    block in place. -/
theorem found_5 {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block at every point — fetched there, or, where the block index has
    not moved, left from the point before — for any proof data whose array is the region's and whose body leaves the
    block in place. -/
theorem found_6 {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two operations after the region -/

/-- They touch only the pipeline's arrays and buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write no array of the pipeline: each writes its own result, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-! ## The arguments after the whole program -/

section Kept

variable (dats : (p : Fin 1) → (c : Dev nD) → Dat τ (Elt F) Unit ℕ (UR sig nD τ) ℕ (cfgs p) c)

/-- Argument 0 bypasses the region, and neither later operation writes it. -/
theorem tail_arg0 (c : Dev nD) : Pipeline.afterTail₀ cfgs dats 0 (entry m) [hostOps1] c main_arg0 = m ((c : Thread nD τ).loc main_arg0) := by
  unfold Pipeline.afterTail₀
  show StableHlo.after hostOps1 _ (Proc.devRef .tc main_arg0) = _
  after_results
  rw [Pipeline.withArrays_of_ne _ _ _ _ main_arg0 (by decide)]
  exact entry_arg0 m c
/-- Argument 4 bypasses the region, and neither later operation writes it. -/
theorem tail_arg4 (c : Dev nD) : Pipeline.afterTail₀ cfgs dats 0 (entry m) [hostOps1] c main_arg4 = m ((c : Thread nD τ).loc main_arg4) := by
  unfold Pipeline.afterTail₀
  show StableHlo.after hostOps1 _ (Proc.devRef .tc main_arg4) = _
  after_results
  rw [Pipeline.withArrays_of_ne _ _ _ _ main_arg4 (by decide)]
  exact entry_arg4 m c
/-- Argument 6 bypasses the region, and neither later operation writes it. -/
theorem tail_arg6 (c : Dev nD) : Pipeline.afterTail₀ cfgs dats 0 (entry m) [hostOps1] c main_arg6 = m ((c : Thread nD τ).loc main_arg6) := by
  unfold Pipeline.afterTail₀
  show StableHlo.after hostOps1 _ (Proc.devRef .tc main_arg6) = _
  after_results
  rw [Pipeline.withArrays_of_ne _ _ _ _ main_arg6 (by decide)]
  exact entry_arg6 m c

/-- The seven arguments after a run of the whole program to the library's post for it: an argument that is a window's
    array is an input array, which the pipeline leaves at its entry contents; one that bypasses the region holds what
    the later operations leave, which is what it held. Either way, its launch contents. -/
theorem kept_of (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide)).trans (tail_arg0 m dats c),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).1 3).trans (((dats 0 c).arrAt_in 3 rfl _).trans ((hA c 3).trans (entry_arg3 m c))),
      ((h c).2 main_arg4 (by decide)).trans (tail_arg4 m dats c),
      ((h c).1 5).trans (((dats 0 c).arrAt_in 5 rfl _).trans ((hA c 5).trans (entry_arg5 m c))),
      ((h c).2 main_arg6 (by decide)).trans (tail_arg6 m dats c)⟩) h

end Kept

end Cert.Kernel.Staged

end
-- ==== Proof.BitsBody.lean ====
/-
  One grid point of the kernel: from a block of 4096 samples it loads the five state channels (forty positions each,
  side by side in the stacked array), the five driver parameters (one column each), the block's feature rows and the
  two layers' weights and biases, computes the mixed accelerations and the gates, and stores each over the whole of
  its output block.

  Stated here, for any float instance: the rectangles the body loads through; what it leaves in the two output
  buffers as a function of the seven input blocks (`leftMixed`, `leftGates`: its one store into each, which covers the
  block, over the body's arithmetic as the pure terms `k0_payN`); that the body, run on whole staging buffers holding
  any seven input blocks, faults nowhere, leaves the inputs as they were and the outputs at those functions
  (`body_run`, by symbolic execution); the pipeline's proof data — every array as the region finds it, every input
  buffer at its block, the two outputs at `leftMixed` / `leftGates` of the point's blocks, nothing kept between points,
  nothing owed — and the library's body obligation for it at every grid point.
-/
import proofs.«412750_j77360950935639_3_alg».proof.Proof.BitsEntry
import proofs.«412750_j77360950935639_3_alg».proof.Proof.Gen.Kernel.Skeleton
import Idealize.ShloMosaic.Lib.Ring
import Idealize.ShloMosaic.Lib.Tactic

set_option maxRecDepth 16384

noncomputable section

namespace Cert.Kernel.Staged

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- Channel `k` of the stacked state block: columns `40 k … 40 k + 39`. -/
abbrev chan0 : Rect S4096x200 := Rect.unit (s := S4096x200) ![0, 0] S4096x40.size inb_S4096x200_S4096x40_0_0
abbrev chan1 : Rect S4096x200 := Rect.unit (s := S4096x200) ![0, 40] S4096x40.size inb_S4096x200_S4096x40_0_40
abbrev chan2 : Rect S4096x200 := Rect.unit (s := S4096x200) ![0, 80] S4096x40.size inb_S4096x200_S4096x40_0_80
abbrev chan3 : Rect S4096x200 := Rect.unit (s := S4096x200) ![0, 120] S4096x40.size inb_S4096x200_S4096x40_0_120
abbrev chan4 : Rect S4096x200 := Rect.unit (s := S4096x200) ![0, 160] S4096x40.size inb_S4096x200_S4096x40_0_160
/-- Driver parameter `k`: column `k` of the parameter block. -/
abbrev par0 : Rect S4096x5 := Rect.unit (s := S4096x5) ![0, 0] S4096x1.size inb_S4096x5_S4096x1_0_0
abbrev par1 : Rect S4096x5 := Rect.unit (s := S4096x5) ![0, 1] S4096x1.size inb_S4096x5_S4096x1_0_1
abbrev par2 : Rect S4096x5 := Rect.unit (s := S4096x5) ![0, 2] S4096x1.size inb_S4096x5_S4096x1_0_2
abbrev par3 : Rect S4096x5 := Rect.unit (s := S4096x5) ![0, 3] S4096x1.size inb_S4096x5_S4096x1_0_3
abbrev par4 : Rect S4096x5 := Rect.unit (s := S4096x5) ![0, 4] S4096x1.size inb_S4096x5_S4096x1_0_4
/-- The feature block, the two weight matrices, the two bias rows and an output block, each whole. -/
abbrev allFeat : Rect S4096x128 := Rect.unit (s := S4096x128) ![0, 0] S4096x128.size inb_S4096x128_S4096x128_0_0
abbrev allW1 : Rect S128x100 := Rect.unit (s := S128x100) ![0, 0] S128x100.size inb_S128x100_S128x100_0_0
abbrev allB1 : Rect S1x100 := Rect.unit (s := S1x100) ![0, 0] S1x100.size inb_S1x100_S1x100_0_0
abbrev allW2 : Rect S100x40 := Rect.unit (s := S100x40) ![0, 0] S100x40.size inb_S100x40_S100x40_0_0
abbrev allB2 : Rect S1x40 := Rect.unit (s := S1x40) ![0, 0] S1x40.size inb_S1x40_S1x40_0_0
abbrev allOut : Rect S4096x40 := Rect.unit (s := S4096x40) ![0, 0] S4096x40.size inb_S4096x40_S4096x40_0_0

/-! ## What the body leaves in the output buffers -/

/-- The block's scores before the gate's logistic: the two affine layers over the feature rows. -/
abbrev scoreOf (x2 : Vec F S4096x128 .f32) (x3 : Vec F S128x100 .f32) (x4 : Vec F S1x100 .f32) (x5 : Vec F S100x40 .f32) (x6 : Vec F S1x40 .f32) : FVec F S4096x40 .f32 :=
  k0_pay11 (View.ld x2 allFeat) (View.ld x3 allW1) (View.ld x4 allB1) (View.ld x5 allW2) (View.ld x6 allB2)

/-- The gates' buffer after the body: its one store, over the whole block. -/
def leftGates (x2 : Vec F S4096x128 .f32) (x3 : Vec F S128x100 .f32) (x4 : Vec F S1x100 .f32) (x5 : Vec F S100x40 .f32) (x6 : Vec F S1x40 .f32) : Vec F S4096x40 .f32 :=
  View.canon [⟨allOut, k0_pay1 (scoreOf x2 x3 x4 x5 x6) (k0_pay12 (F := F))⟩]

/-- The mixed accelerations' buffer after the body: its one store, over the whole block — the gate's mixture of the
    clipped acceleration toward the leader (channels 1, 2) and toward the merging vehicle (channels 3, 4). -/
def leftMixed (x0 : Vec F S4096x200 .f32) (x1 : Vec F S4096x5 .f32) (x2 : Vec F S4096x128 .f32) (x3 : Vec F S128x100 .f32) (x4 : Vec F S1x100 .f32) (x5 : Vec F S100x40 .f32) (x6 : Vec F S1x40 .f32) : Vec F S4096x40 .f32 :=
  View.canon [⟨allOut, k0_pay2
    (k0_pay9 (k0_pay7 (View.ld x0 chan0) (View.ld x0 chan1) (View.ld x0 chan2) (View.ld x1 par0) (View.ld x1 par1) (View.ld x1 par2) (View.ld x1 par3) (View.ld x1 par4)) (k0_pay8 (View.ld x1 par3)))
    (k0_pay10 (k0_pay3 (View.ld x0 chan0)) (k0_pay4 (View.ld x0 chan3)) (k0_pay5 (View.ld x0 chan4)) (View.ld x1 par0) (View.ld x1 par1) (View.ld x1 par2) (View.ld x1 par3) (k0_pay6 (View.ld x1 par3) (View.ld x1 par4)))
    (scoreOf x2 x3 x4 x5 x6) (k0_pay12 (F := F))⟩]

/-- One store of the whole block covers it. -/
theorem out_cover (p0 : Vec F S4096x40 .f32) (y : S4096x40.Idx) :
    ∃ pc ∈ ([⟨allOut, p0⟩] : List (View.Piece (Elt F) S4096x40 .f32)), y ∈ pc.1.set :=
  View.cover_of_tiled [⟨allOut, p0⟩] S4096x40.size (by rfl) y

/-! ## The body's run -/

set_option maxHeartbeats 4000000 in
/-- The body on whole staging buffers, the seven inputs' at any contents `x0 … x6` and the two outputs' at anything,
    runs without fault to its return, the inputs' buffers as they were and the outputs' at `leftMixed` and `leftGates`
    of the inputs. -/
theorem body_run (c : Dev nD) (E : Set ℕ) (i : grid0.Coords) (arg1 : Memref sig .tc .vmem S4096x200 .f32) (harg1 : arg1.IsWhole) (arg2 : Memref sig .tc .vmem S4096x5 .f32) (harg2 : arg2.IsWhole) (arg3 : Memref sig .tc .vmem S4096x128 .f32) (harg3 : arg3.IsWhole) (arg4 : Memref sig .tc .vmem S128x100 .f32) (harg4 : arg4.IsWhole) (arg5 : Memref sig .tc .vmem S1x100 .f32) (harg5 : arg5.IsWhole) (arg6 : Memref sig .tc .vmem S100x40 .f32) (harg6 : arg6.IsWhole) (arg7 : Memref sig .tc .vmem S1x40 .f32) (harg7 : arg7.IsWhole) (arg8 : Memref sig .tc .vmem S4096x40 .f32) (harg8 : arg8.IsWhole) (arg9 : Memref sig .tc .vmem S4096x40 .f32) (harg9 : arg9.IsWhole)
    (x0 : Vec F S4096x200 .f32) (x1 : Vec F S4096x5 .f32) (x2 : Vec F S4096x128 .f32) (x3 : Vec F S128x100 .f32) (x4 : Vec F S1x100 .f32) (x5 : Vec F S100x40 .f32) (x6 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (leftMixed x0 x1 x2 x3 x4 x5 x6) ∗ owns (c : Thread nD τ) arg9 fullShare (leftGates x2 x3 x4 x5 x6)) -∗ K ⟨⟩))
      ⊢ wp frame (wpE (defs₀ (F := F)) Variants.none c none) E (cc0__idm_kernel i arg1 harg1 arg2 harg2 arg3 harg3 arg4 harg4 arg5 harg5 arg6 harg6 arg7 harg7 arg8 harg8 arg9 harg9) K := by
  simp only [cc0__idm_kernel_eq_skeleton]; unfold cc0__idm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (out_cover _)
  iexists _; isplitr
  swap; · iexact H8
  ipureintro
  exact View.read_writes_eq_canon _ _ _ (out_cover _)

/-! ## The pipeline's proof data -/

/-- The proof data of the pipeline on core `c`: every array as the region finds it; after the body at point `t` each
    input's buffer at its block and the two outputs' at `leftMixed` / `leftGates` of the point's blocks; between points
    only the class's own invariant (nothing of the kernel's); full shares; nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => leftMixed (blockAt m c 0 t) (blockAt m c 1 t) (blockAt m c 2 t) (blockAt m c 3 t) (blockAt m c 4 t) (blockAt m c 5 t) (blockAt m c 6 t)
    | ⟨8, _⟩ => leftGates (blockAt m c 2 t) (blockAt m c 3 t) (blockAt m c 4 t) (blockAt m c 5 t) (blockAt m c 6 t)
  Φ _ := Pipeline.ΦA spec0 c
  q _ := fullShare
  owed _ := 0

/-- The proof data's arrays are the region-entry contents (the definition projected, the host operations' fold never
    opened). -/
theorem A_eq (c : Dev nD) (w : Fin cfg0.W) : (dats m 0 c).A w = entryAt m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = leftMixed (blockAt m c 0 t) (blockAt m c 1 t) (blockAt m c 2 t) (blockAt m c 3 t) (blockAt m c 4 t) (blockAt m c 5 t) (blockAt m c 6 t) := by dsimp only [dats]
theorem after_8 (c : Dev nD) (t : Fin cfg0.N) : (dats m 0 c).after 8 t = leftGates (blockAt m c 2 t) (blockAt m c 3 t) (blockAt m c 4 t) (blockAt m c 5 t) (blockAt m c 6 t) := by dsimp only [dats]

/-- Each input's staging buffer holds its block at every point. -/
theorem before_0 (c : Dev nD) (t : Fin cfg0.N) (d) : (dats m 0 c).before 0 t d = blockAt m c 0 t :=
  found_0 m (dats m 0 c) (A_eq m c 0) (after_0 m c) t d
theorem before_1 (c : Dev nD) (t : Fin cfg0.N) (d) : (dats m 0 c).before 1 t d = blockAt m c 1 t :=
  found_1 m (dats m 0 c) (A_eq m c 1) (after_1 m c) t d
theorem before_2 (c : Dev nD) (t : Fin cfg0.N) (d) : (dats m 0 c).before 2 t d = blockAt m c 2 t :=
  found_2 m (dats m 0 c) (A_eq m c 2) (after_2 m c) t d
theorem before_3 (c : Dev nD) (t : Fin cfg0.N) (d) : (dats m 0 c).before 3 t d = blockAt m c 3 t :=
  found_3 m (dats m 0 c) (A_eq m c 3) (after_3 m c) t d
theorem before_4 (c : Dev nD) (t : Fin cfg0.N) (d) : (dats m 0 c).before 4 t d = blockAt m c 4 t :=
  found_4 m (dats m 0 c) (A_eq m c 4) (after_4 m c) t d
theorem before_5 (c : Dev nD) (t : Fin cfg0.N) (d) : (dats m 0 c).before 5 t d = blockAt m c 5 t :=
  found_5 m (dats m 0 c) (A_eq m c 5) (after_5 m c) t d
theorem before_6 (c : Dev nD) (t : Fin cfg0.N) (d) : (dats m 0 c).before 6 t d = blockAt m c 6 t :=
  found_6 m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `body_run` applies at those; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Staged

end
-- ==== Proof.BitsRun.lean ====
/-
  The whole program's run, for any float instance: launched from any memory with zero counters, every weakly fair
  execution runs the nineteen host operations, the region at its 64 grid points — each point's body by the obligation
  proved for it, the pipeline's fetches and write-backs by the library's rule — and the two later operations, and
  terminates without fault (`run_main`). Read off its final state: the seven arguments hold their launch contents
  (`frame`), and each of the two results is the pipeline's output array — what the 64 write-backs leave of it —
  given a trailing axis of extent one by the later operation that writes it (`run_results`).
-/
import proofs.«412750_j77360950935639_3_alg».proof.Proof.BitsBody

set_option maxRecDepth 16384

noncomputable section

namespace Cert.Kernel.Staged

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, and in every final
    state each array of the pipeline holds what the library computes from the proof data and every other unscoped
    buffer what the two later operations leave it at. -/
theorem run_main : θ_run defs (onTc (τ := τ) (main (F := F))) (s₀ m ρ)
    (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := hmain m Variants.none) (hA := A_eq m) (hΦ := fun _ _ => rfl)

/-- The program runs to its end without fault and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  kept_of m ρ (dats m) (A_eq m) (run_main m ρ)

/-- The first result after the later operations: the mixed accelerations' array, a trailing axis of extent one added. -/
theorem tail_mixed (c : Dev nD) : Pipeline.afterTail₀ cfgs (dats m) 0 (entry m) [hostOps1] c main_v20
    = broadcastInDim S262144x40x1 ![0, 1] bcast_S262144x40_S262144x40x1_0_1 ((dats m 0 c).arrAt 7 cfg0.N) := by
  unfold Pipeline.afterTail₀
  show StableHlo.after hostOps1 _ (Proc.devRef .tc main_v20) = _
  after_results
  exact congrArg _ (Pipeline.withArrays_arr spec0 launch0.win.arr_inj c _ _ 7)

/-- The second result: the gates' array, likewise. -/
theorem tail_gates (c : Dev nD) : Pipeline.afterTail₀ cfgs (dats m) 0 (entry m) [hostOps1] c main_v21
    = broadcastInDim S262144x40x1 ![0, 1] bcast_S262144x40_S262144x40x1_0_1 ((dats m 0 c).arrAt 8 cfg0.N) := by
  unfold Pipeline.afterTail₀
  show StableHlo.after hostOps1 _ (Proc.devRef .tc main_v21) = _
  after_results
  exact congrArg _ (Pipeline.withArrays_arr spec0 launch0.win.arr_inj c _ _ 8)

/-- The run with both results named and the arguments unchanged. -/
theorem run_results : θ_run defs (onTc (τ := τ) (main (F := F))) ⟨m, fun _ => 0, ρ⟩ (fun r => ∀ c : Dev nD,
      r.2.mem ((c.tc : Thread nD τ).loc main_v20) = broadcastInDim S262144x40x1 ![0, 1] bcast_S262144x40_S262144x40x1_0_1 ((dats m 0 c).arrAt 7 cfg0.N)
      ∧ r.2.mem ((c.tc : Thread nD τ).loc main_v21) = broadcastInDim S262144x40x1 ![0, 1] bcast_S262144x40_S262144x40x1_0_1 ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v20 (by decide)).trans (tail_mixed m c),
      ((h c).2 main_v21 (by decide)).trans (tail_gates m c),
      ((h c).2 main_arg0 (by decide)).trans (tail_arg0 m (dats m) c),
      ((h c).1 1).trans ((((dats m) 0 c).arrAt_in 1 rfl _).trans ((A_eq m c 1).trans (entry_arg1 m c))),
      ((h c).1 2).trans ((((dats m) 0 c).arrAt_in 2 rfl _).trans ((A_eq m c 2).trans (entry_arg2 m c))),
      ((h c).1 3).trans ((((dats m) 0 c).arrAt_in 3 rfl _).trans ((A_eq m c 3).trans (entry_arg3 m c))),
      ((h c).2 main_arg4 (by decide)).trans (tail_arg4 m (dats m) c),
      ((h c).1 5).trans ((((dats m) 0 c).arrAt_in 5 rfl _).trans ((A_eq m c 5).trans (entry_arg5 m c))),
      ((h c).2 main_arg6 (by decide)).trans (tail_arg6 m (dats m) c)⟩) (run_main m ρ)

end Cert.Kernel.Staged

end
-- ==== Proof.IdealEntry.lean ====
/-
  The kernel's program around its one pipelined region: nineteen host operations that lay the five state channels
  the driver model reads (speed; closing speed and gap to the leader; closing speed and gap to the merging vehicle)
  side by side, one run of forty positions per channel, and reshape the two bias vectors to rows; the region over a
  grid of 64 blocks of 4096 samples; two host operations that give each result a trailing axis of extent one.

  Stated here, for any float instance: what every buffer holds when the region is entered (`entry`: the host
  operations' fold over the launch memory), that the program is those operations, the region, and the two later
  operations (`hmain`); that no host operation before the region writes an argument (`entry_argK`); what block of its
  array each window stages at a grid point (`blockAt`), and that an input window's staging buffer holds exactly that
  block at every point, fetched there or left from the point before (`found_W`); that the two later operations touch
  no array of the pipeline; and how the seven arguments' final contents are read off a run of the whole program
  (`kept_of`): an argument a window stages is an input array, unchanged; one that bypasses the region is written by
  no operation after it either.
-/
import proofs.«412750_j77360950935639_3_alg».proof.Proof.Gen.KernelIdeal.Launch
import proofs.«412750_j77360950935639_3_alg».proof.Proof.Gen.KernelIdeal.Points
import Idealize.ShloMosaic.Lib.Pipeline.FrameSuffix
import Idealize.ShloMosaic.Lib.Pipeline.FrameBody

set_option maxRecDepth 16384

noncomputable section

namespace Cert.KernelIdeal.Staged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ) (ρ : Dev nD → PrngReg)

/-! ## The program around the region -/

/-- Every buffer of core `c` when the region is entered: the nineteen host operations folded over the launch memory. -/
abbrev entry (c : Dev nD) : Valuation τ sig (Elt F) := StableHlo.after (List.flatten [hostOps0]) (fun b => m (c, b))
/-- The same, read at a reference of the core. -/
abbrev entryAt (c : Dev nD) (b : Ref sig .tc) : Buf (Elt F) ((c : Thread nD τ).loc b) := entry m c (Proc.devRef .tc b)

/-- No host operation before the region allocates a buffer, -/
theorem prefix_fresh : (hostOps0 : List (HloOp τ sig (Elt F))).Forall fun op => op.fresh = ∅ := by
  simp only [List.Forall]; repeat' constructor
/-- and neither of the two after it does. -/
theorem suffix_fresh : (hostOps1 : List (HloOp τ sig (Elt F))).Forall fun op => op.fresh = ∅ := by
  simp only [List.Forall]; repeat' constructor

/-- The program is its host operations, the region, and the two later operations: holding every buffer at its launch
    contents it reduces to the region entered at `entry`, continued by the later operations. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-! ## The arguments as the region finds them -/

/-- Argument 0 is written by no host operation before the region. -/
theorem entry_arg0 (c : Dev nD) : entryAt m c main_arg0 = m ((c : Thread nD τ).loc main_arg0) := by
  show StableHlo.after hostOps0 (fun b => m (c, b)) (Proc.devRef .tc main_arg0) = _
  after_results
/-- Argument 1 is written by no host operation before the region. -/
theorem entry_arg1 (c : Dev nD) : entryAt m c main_arg1 = m ((c : Thread nD τ).loc main_arg1) := by
  show StableHlo.after hostOps0 (fun b => m (c, b)) (Proc.devRef .tc main_arg1) = _
  after_results
/-- Argument 2 is written by no host operation before the region. -/
theorem entry_arg2 (c : Dev nD) : entryAt m c main_arg2 = m ((c : Thread nD τ).loc main_arg2) := by
  show StableHlo.after hostOps0 (fun b => m (c, b)) (Proc.devRef .tc main_arg2) = _
  after_results
/-- Argument 3 is written by no host operation before the region. -/
theorem entry_arg3 (c : Dev nD) : entryAt m c main_arg3 = m ((c : Thread nD τ).loc main_arg3) := by
  show StableHlo.after hostOps0 (fun b => m (c, b)) (Proc.devRef .tc main_arg3) = _
  after_results
/-- Argument 4 is written by no host operation before the region. -/
theorem entry_arg4 (c : Dev nD) : entryAt m c main_arg4 = m ((c : Thread nD τ).loc main_arg4) := by
  show StableHlo.after hostOps0 (fun b => m (c, b)) (Proc.devRef .tc main_arg4) = _
  after_results
/-- Argument 5 is written by no host operation before the region. -/
theorem entry_arg5 (c : Dev nD) : entryAt m c main_arg5 = m ((c : Thread nD τ).loc main_arg5) := by
  show StableHlo.after hostOps0 (fun b => m (c, b)) (Proc.devRef .tc main_arg5) = _
  after_results
/-- Argument 6 is written by no host operation before the region. -/
theorem entry_arg6 (c : Dev nD) : entryAt m c main_arg6 = m ((c : Thread nD τ).loc main_arg6) := by
  show StableHlo.after hostOps0 (fun b => m (c, b)) (Proc.devRef .tc main_arg6) = _
  after_results

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's staging buffer holds its block at every point — fetched there, or, where the block index has
    not moved, left from the point before — for any proof data whose array is the region's and whose body leaves the
    block in place. -/
theorem found_0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point — fetched there, or, where the block index has
    not moved, left from the point before — for any proof data whose array is the region's and whose body leaves the
    block in place. -/
theorem found_1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point — fetched there, or, where the block index has
    not moved, left from the point before — for any proof data whose array is the region's and whose body leaves the
    block in place. -/
theorem found_2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point — fetched there, or, where the block index has
    not moved, left from the point before — for any proof data whose array is the region's and whose body leaves the
    block in place. -/
theorem found_3 {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point — fetched there, or, where the block index has
    not moved, left from the point before — for any proof data whose array is the region's and whose body leaves the
    block in place. -/
theorem found_4 {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point — fetched there, or, where the block index has
    not moved, left from the point before — for any proof data whose array is the region's and whose body leaves the
    block in place. -/
theorem found_5 {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block at every point — fetched there, or, where the block index has
    not moved, left from the point before — for any proof data whose array is the region's and whose body leaves the
    block in place. -/
theorem found_6 {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The two operations after the region -/

/-- They touch only the pipeline's arrays and buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write no array of the pipeline: each writes its own result, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-! ## The arguments after the whole program -/

section Kept

variable (dats : (p : Fin 1) → (c : Dev nD) → Dat τ (Elt F) Unit ℕ (UR sig nD τ) ℕ (cfgs p) c)

/-- Argument 0 bypasses the region, and neither later operation writes it. -/
theorem tail_arg0 (c : Dev nD) : Pipeline.afterTail₀ cfgs dats 0 (entry m) [hostOps1] c main_arg0 = m ((c : Thread nD τ).loc main_arg0) := by
  unfold Pipeline.afterTail₀
  show StableHlo.after hostOps1 _ (Proc.devRef .tc main_arg0) = _
  after_results
  rw [Pipeline.withArrays_of_ne _ _ _ _ main_arg0 (by decide)]
  exact entry_arg0 m c
/-- Argument 4 bypasses the region, and neither later operation writes it. -/
theorem tail_arg4 (c : Dev nD) : Pipeline.afterTail₀ cfgs dats 0 (entry m) [hostOps1] c main_arg4 = m ((c : Thread nD τ).loc main_arg4) := by
  unfold Pipeline.afterTail₀
  show StableHlo.after hostOps1 _ (Proc.devRef .tc main_arg4) = _
  after_results
  rw [Pipeline.withArrays_of_ne _ _ _ _ main_arg4 (by decide)]
  exact entry_arg4 m c
/-- Argument 6 bypasses the region, and neither later operation writes it. -/
theorem tail_arg6 (c : Dev nD) : Pipeline.afterTail₀ cfgs dats 0 (entry m) [hostOps1] c main_arg6 = m ((c : Thread nD τ).loc main_arg6) := by
  unfold Pipeline.afterTail₀
  show StableHlo.after hostOps1 _ (Proc.devRef .tc main_arg6) = _
  after_results
  rw [Pipeline.withArrays_of_ne _ _ _ _ main_arg6 (by decide)]
  exact entry_arg6 m c

/-- The seven arguments after a run of the whole program to the library's post for it: an argument that is a window's
    array is an input array, which the pipeline leaves at its entry contents; one that bypasses the region holds what
    the later operations leave, which is what it held. Either way, its launch contents. -/
theorem kept_of (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide)).trans (tail_arg0 m dats c),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).1 3).trans (((dats 0 c).arrAt_in 3 rfl _).trans ((hA c 3).trans (entry_arg3 m c))),
      ((h c).2 main_arg4 (by decide)).trans (tail_arg4 m dats c),
      ((h c).1 5).trans (((dats 0 c).arrAt_in 5 rfl _).trans ((hA c 5).trans (entry_arg5 m c))),
      ((h c).2 main_arg6 (by decide)).trans (tail_arg6 m dats c)⟩) h

end Kept

end Cert.KernelIdeal.Staged

end
-- ==== Proof.IdealBody.lean ====
/-
  One grid point of the kernel: from a block of 4096 samples it loads the five state channels (forty positions each,
  side by side in the stacked array), the five driver parameters (one column each), the block's feature rows and the
  two layers' weights and biases, computes the mixed accelerations and the gates, and stores each over the whole of
  its output block.

  Stated here, for any float instance: the rectangles the body loads through; what it leaves in the two output
  buffers as a function of the seven input blocks (`leftMixed`, `leftGates`: its one store into each, which covers the
  block, over the body's arithmetic as the pure terms `k0_payN`); that the body, run on whole staging buffers holding
  any seven input blocks, faults nowhere, leaves the inputs as they were and the outputs at those functions
  (`body_run`, by symbolic execution); the pipeline's proof data — every array as the region finds it, every input
  buffer at its block, the two outputs at `leftMixed` / `leftGates` of the point's blocks, nothing kept between points,
  nothing owed — and the library's body obligation for it at every grid point.
-/
import proofs.«412750_j77360950935639_3_alg».proof.Proof.IdealEntry
import proofs.«412750_j77360950935639_3_alg».proof.Proof.Gen.KernelIdeal.Skeleton
import Idealize.ShloMosaic.Lib.Ring
import Idealize.ShloMosaic.Lib.Tactic

set_option maxRecDepth 16384

noncomputable section

namespace Cert.KernelIdeal.Staged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- Channel `k` of the stacked state block: columns `40 k … 40 k + 39`. -/
abbrev chan0 : Rect S4096x200 := Rect.unit (s := S4096x200) ![0, 0] S4096x40.size inb_S4096x200_S4096x40_0_0
abbrev chan1 : Rect S4096x200 := Rect.unit (s := S4096x200) ![0, 40] S4096x40.size inb_S4096x200_S4096x40_0_40
abbrev chan2 : Rect S4096x200 := Rect.unit (s := S4096x200) ![0, 80] S4096x40.size inb_S4096x200_S4096x40_0_80
abbrev chan3 : Rect S4096x200 := Rect.unit (s := S4096x200) ![0, 120] S4096x40.size inb_S4096x200_S4096x40_0_120
abbrev chan4 : Rect S4096x200 := Rect.unit (s := S4096x200) ![0, 160] S4096x40.size inb_S4096x200_S4096x40_0_160
/-- Driver parameter `k`: column `k` of the parameter block. -/
abbrev par0 : Rect S4096x5 := Rect.unit (s := S4096x5) ![0, 0] S4096x1.size inb_S4096x5_S4096x1_0_0
abbrev par1 : Rect S4096x5 := Rect.unit (s := S4096x5) ![0, 1] S4096x1.size inb_S4096x5_S4096x1_0_1
abbrev par2 : Rect S4096x5 := Rect.unit (s := S4096x5) ![0, 2] S4096x1.size inb_S4096x5_S4096x1_0_2
abbrev par3 : Rect S4096x5 := Rect.unit (s := S4096x5) ![0, 3] S4096x1.size inb_S4096x5_S4096x1_0_3
abbrev par4 : Rect S4096x5 := Rect.unit (s := S4096x5) ![0, 4] S4096x1.size inb_S4096x5_S4096x1_0_4
/-- The feature block, the two weight matrices, the two bias rows and an output block, each whole. -/
abbrev allFeat : Rect S4096x128 := Rect.unit (s := S4096x128) ![0, 0] S4096x128.size inb_S4096x128_S4096x128_0_0
abbrev allW1 : Rect S128x100 := Rect.unit (s := S128x100) ![0, 0] S128x100.size inb_S128x100_S128x100_0_0
abbrev allB1 : Rect S1x100 := Rect.unit (s := S1x100) ![0, 0] S1x100.size inb_S1x100_S1x100_0_0
abbrev allW2 : Rect S100x40 := Rect.unit (s := S100x40) ![0, 0] S100x40.size inb_S100x40_S100x40_0_0
abbrev allB2 : Rect S1x40 := Rect.unit (s := S1x40) ![0, 0] S1x40.size inb_S1x40_S1x40_0_0
abbrev allOut : Rect S4096x40 := Rect.unit (s := S4096x40) ![0, 0] S4096x40.size inb_S4096x40_S4096x40_0_0

/-! ## What the body leaves in the output buffers -/

/-- The block's scores before the gate's logistic: the two affine layers over the feature rows. -/
abbrev scoreOf (x2 : Vec F S4096x128 .f32) (x3 : Vec F S128x100 .f32) (x4 : Vec F S1x100 .f32) (x5 : Vec F S100x40 .f32) (x6 : Vec F S1x40 .f32) : FVec F S4096x40 .f32 :=
  k0_pay11 (View.ld x2 allFeat) (View.ld x3 allW1) (View.ld x4 allB1) (View.ld x5 allW2) (View.ld x6 allB2)

/-- The gates' buffer after the body: its one store, over the whole block. -/
def leftGates (x2 : Vec F S4096x128 .f32) (x3 : Vec F S128x100 .f32) (x4 : Vec F S1x100 .f32) (x5 : Vec F S100x40 .f32) (x6 : Vec F S1x40 .f32) : Vec F S4096x40 .f32 :=
  View.canon [⟨allOut, k0_pay1 (scoreOf x2 x3 x4 x5 x6) (k0_pay12 (F := F))⟩]

/-- The mixed accelerations' buffer after the body: its one store, over the whole block — the gate's mixture of the
    clipped acceleration toward the leader (channels 1, 2) and toward the merging vehicle (channels 3, 4). -/
def leftMixed (x0 : Vec F S4096x200 .f32) (x1 : Vec F S4096x5 .f32) (x2 : Vec F S4096x128 .f32) (x3 : Vec F S128x100 .f32) (x4 : Vec F S1x100 .f32) (x5 : Vec F S100x40 .f32) (x6 : Vec F S1x40 .f32) : Vec F S4096x40 .f32 :=
  View.canon [⟨allOut, k0_pay2
    (k0_pay9 (k0_pay7 (View.ld x0 chan0) (View.ld x0 chan1) (View.ld x0 chan2) (View.ld x1 par0) (View.ld x1 par1) (View.ld x1 par2) (View.ld x1 par3) (View.ld x1 par4)) (k0_pay8 (View.ld x1 par3)))
    (k0_pay10 (k0_pay3 (View.ld x0 chan0)) (k0_pay4 (View.ld x0 chan3)) (k0_pay5 (View.ld x0 chan4)) (View.ld x1 par0) (View.ld x1 par1) (View.ld x1 par2) (View.ld x1 par3) (k0_pay6 (View.ld x1 par3) (View.ld x1 par4)))
    (scoreOf x2 x3 x4 x5 x6) (k0_pay12 (F := F))⟩]

/-- One store of the whole block covers it. -/
theorem out_cover (p0 : Vec F S4096x40 .f32) (y : S4096x40.Idx) :
    ∃ pc ∈ ([⟨allOut, p0⟩] : List (View.Piece (Elt F) S4096x40 .f32)), y ∈ pc.1.set :=
  View.cover_of_tiled [⟨allOut, p0⟩] S4096x40.size (by rfl) y

/-! ## The body's run -/

set_option maxHeartbeats 4000000 in
/-- The body on whole staging buffers, the seven inputs' at any contents `x0 … x6` and the two outputs' at anything,
    runs without fault to its return, the inputs' buffers as they were and the outputs' at `leftMixed` and `leftGates`
    of the inputs. -/
theorem body_run (c : Dev nD) (E : Set ℕ) (i : grid0.Coords) (arg1 : Memref sig .tc .vmem S4096x200 .f32) (harg1 : arg1.IsWhole) (arg2 : Memref sig .tc .vmem S4096x5 .f32) (harg2 : arg2.IsWhole) (arg3 : Memref sig .tc .vmem S4096x128 .f32) (harg3 : arg3.IsWhole) (arg4 : Memref sig .tc .vmem S128x100 .f32) (harg4 : arg4.IsWhole) (arg5 : Memref sig .tc .vmem S1x100 .f32) (harg5 : arg5.IsWhole) (arg6 : Memref sig .tc .vmem S100x40 .f32) (harg6 : arg6.IsWhole) (arg7 : Memref sig .tc .vmem S1x40 .f32) (harg7 : arg7.IsWhole) (arg8 : Memref sig .tc .vmem S4096x40 .f32) (harg8 : arg8.IsWhole) (arg9 : Memref sig .tc .vmem S4096x40 .f32) (harg9 : arg9.IsWhole)
    (x0 : Vec F S4096x200 .f32) (x1 : Vec F S4096x5 .f32) (x2 : Vec F S4096x128 .f32) (x3 : Vec F S128x100 .f32) (x4 : Vec F S1x100 .f32) (x5 : Vec F S100x40 .f32) (x6 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (leftMixed x0 x1 x2 x3 x4 x5 x6) ∗ owns (c : Thread nD τ) arg9 fullShare (leftGates x2 x3 x4 x5 x6)) -∗ K ⟨⟩))
      ⊢ wp frame (wpE (defs₀ (F := F)) Variants.none c none) E (cc0__idm_kernel i arg1 harg1 arg2 harg2 arg3 harg3 arg4 harg4 arg5 harg5 arg6 harg6 arg7 harg7 arg8 harg8 arg9 harg9) K := by
  simp only [cc0__idm_kernel_eq_skeleton]; unfold cc0__idm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (out_cover _)
  iexists _; isplitr
  swap; · iexact H8
  ipureintro
  exact View.read_writes_eq_canon _ _ _ (out_cover _)

/-! ## The pipeline's proof data -/

/-- The proof data of the pipeline on core `c`: every array as the region finds it; after the body at point `t` each
    input's buffer at its block and the two outputs' at `leftMixed` / `leftGates` of the point's blocks; between points
    only the class's own invariant (nothing of the kernel's); full shares; nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => leftMixed (blockAt m c 0 t) (blockAt m c 1 t) (blockAt m c 2 t) (blockAt m c 3 t) (blockAt m c 4 t) (blockAt m c 5 t) (blockAt m c 6 t)
    | ⟨8, _⟩ => leftGates (blockAt m c 2 t) (blockAt m c 3 t) (blockAt m c 4 t) (blockAt m c 5 t) (blockAt m c 6 t)
  Φ _ := Pipeline.ΦA spec0 c
  q _ := fullShare
  owed _ := 0

/-- The proof data's arrays are the region-entry contents (the definition projected, the host operations' fold never
    opened). -/
theorem A_eq (c : Dev nD) (w : Fin cfg0.W) : (dats m 0 c).A w = entryAt m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = leftMixed (blockAt m c 0 t) (blockAt m c 1 t) (blockAt m c 2 t) (blockAt m c 3 t) (blockAt m c 4 t) (blockAt m c 5 t) (blockAt m c 6 t) := by dsimp only [dats]
theorem after_8 (c : Dev nD) (t : Fin cfg0.N) : (dats m 0 c).after 8 t = leftGates (blockAt m c 2 t) (blockAt m c 3 t) (blockAt m c 4 t) (blockAt m c 5 t) (blockAt m c 6 t) := by dsimp only [dats]

/-- Each input's staging buffer holds its block at every point. -/
theorem before_0 (c : Dev nD) (t : Fin cfg0.N) (d) : (dats m 0 c).before 0 t d = blockAt m c 0 t :=
  found_0 m (dats m 0 c) (A_eq m c 0) (after_0 m c) t d
theorem before_1 (c : Dev nD) (t : Fin cfg0.N) (d) : (dats m 0 c).before 1 t d = blockAt m c 1 t :=
  found_1 m (dats m 0 c) (A_eq m c 1) (after_1 m c) t d
theorem before_2 (c : Dev nD) (t : Fin cfg0.N) (d) : (dats m 0 c).before 2 t d = blockAt m c 2 t :=
  found_2 m (dats m 0 c) (A_eq m c 2) (after_2 m c) t d
theorem before_3 (c : Dev nD) (t : Fin cfg0.N) (d) : (dats m 0 c).before 3 t d = blockAt m c 3 t :=
  found_3 m (dats m 0 c) (A_eq m c 3) (after_3 m c) t d
theorem before_4 (c : Dev nD) (t : Fin cfg0.N) (d) : (dats m 0 c).before 4 t d = blockAt m c 4 t :=
  found_4 m (dats m 0 c) (A_eq m c 4) (after_4 m c) t d
theorem before_5 (c : Dev nD) (t : Fin cfg0.N) (d) : (dats m 0 c).before 5 t d = blockAt m c 5 t :=
  found_5 m (dats m 0 c) (A_eq m c 5) (after_5 m c) t d
theorem before_6 (c : Dev nD) (t : Fin cfg0.N) (d) : (dats m 0 c).before 6 t d = blockAt m c 6 t :=
  found_6 m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `body_run` applies at those; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Staged

end
-- ==== Proof.IdealRun.lean ====
/-
  The whole program's run, for any float instance: launched from any memory with zero counters, every weakly fair
  execution runs the nineteen host operations, the region at its 64 grid points — each point's body by the obligation
  proved for it, the pipeline's fetches and write-backs by the library's rule — and the two later operations, and
  terminates without fault (`run_main`). Read off its final state: the seven arguments hold their launch contents
  (`frame`), and each of the two results is the pipeline's output array — what the 64 write-backs leave of it —
  given a trailing axis of extent one by the later operation that writes it (`run_results`).
-/
import proofs.«412750_j77360950935639_3_alg».proof.Proof.IdealBody

set_option maxRecDepth 16384

noncomputable section

namespace Cert.KernelIdeal.Staged

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, and in every final
    state each array of the pipeline holds what the library computes from the proof data and every other unscoped
    buffer what the two later operations leave it at. -/
theorem run_main : θ_run defs (onTc (τ := τ) (main (F := F))) (s₀ m ρ)
    (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := hmain m Variants.none) (hA := A_eq m) (hΦ := fun _ _ => rfl)

/-- The program runs to its end without fault and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  kept_of m ρ (dats m) (A_eq m) (run_main m ρ)

/-- The first result after the later operations: the mixed accelerations' array, a trailing axis of extent one added. -/
theorem tail_mixed (c : Dev nD) : Pipeline.afterTail₀ cfgs (dats m) 0 (entry m) [hostOps1] c main_v20
    = broadcastInDim S262144x40x1 ![0, 1] bcast_S262144x40_S262144x40x1_0_1 ((dats m 0 c).arrAt 7 cfg0.N) := by
  unfold Pipeline.afterTail₀
  show StableHlo.after hostOps1 _ (Proc.devRef .tc main_v20) = _
  after_results
  exact congrArg _ (Pipeline.withArrays_arr spec0 launch0.win.arr_inj c _ _ 7)

/-- The second result: the gates' array, likewise. -/
theorem tail_gates (c : Dev nD) : Pipeline.afterTail₀ cfgs (dats m) 0 (entry m) [hostOps1] c main_v21
    = broadcastInDim S262144x40x1 ![0, 1] bcast_S262144x40_S262144x40x1_0_1 ((dats m 0 c).arrAt 8 cfg0.N) := by
  unfold Pipeline.afterTail₀
  show StableHlo.after hostOps1 _ (Proc.devRef .tc main_v21) = _
  after_results
  exact congrArg _ (Pipeline.withArrays_arr spec0 launch0.win.arr_inj c _ _ 8)

/-- The run with both results named and the arguments unchanged. -/
theorem run_results : θ_run defs (onTc (τ := τ) (main (F := F))) ⟨m, fun _ => 0, ρ⟩ (fun r => ∀ c : Dev nD,
      r.2.mem ((c.tc : Thread nD τ).loc main_v20) = broadcastInDim S262144x40x1 ![0, 1] bcast_S262144x40_S262144x40x1_0_1 ((dats m 0 c).arrAt 7 cfg0.N)
      ∧ r.2.mem ((c.tc : Thread nD τ).loc main_v21) = broadcastInDim S262144x40x1 ![0, 1] bcast_S262144x40_S262144x40x1_0_1 ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v20 (by decide)).trans (tail_mixed m c),
      ((h c).2 main_v21 (by decide)).trans (tail_gates m c),
      ((h c).2 main_arg0 (by decide)).trans (tail_arg0 m (dats m) c),
      ((h c).1 1).trans ((((dats m) 0 c).arrAt_in 1 rfl _).trans ((A_eq m c 1).trans (entry_arg1 m c))),
      ((h c).1 2).trans ((((dats m) 0 c).arrAt_in 2 rfl _).trans ((A_eq m c 2).trans (entry_arg2 m c))),
      ((h c).1 3).trans ((((dats m) 0 c).arrAt_in 3 rfl _).trans ((A_eq m c 3).trans (entry_arg3 m c))),
      ((h c).2 main_arg4 (by decide)).trans (tail_arg4 m (dats m) c),
      ((h c).1 5).trans ((((dats m) 0 c).arrAt_in 5 rfl _).trans ((A_eq m c 5).trans (entry_arg5 m c))),
      ((h c).2 main_arg6 (by decide)).trans (tail_arg6 m (dats m) c)⟩) (run_main m ρ)

end Cert.KernelIdeal.Staged

end
-- ==== Proof.IdmSpec.lean ====
/-
  The mathematics both programs compute, stated once over the extended reals.

  A follower with speed `vel`, closing speed `dv` and gap `dx` to a vehicle ahead, and driver parameters
  desired speed `vdes`, time gap `tgap`, jam distance `jam`, maximal acceleration `amax` and comfortable
  deceleration `amin`, accelerates by the intelligent-driver-model law

      amax · (1 − (vel / vdes)⁴ − (gap / dx)²),   gap = jam + tgap · vel + vel · dv / (2 · √(amax · amin)),

  clipped to [−3.5, 3.5] (`accel`). The fourth power is two squarings, as both programs spell it. A gate in (0, 1),
  the logistic function of five times an affine-affine score of a feature row (`logit`, `gate`), mixes the
  acceleration toward the leader with the one toward the merging vehicle (`blend`).

  Every float literal stays the word it is printed as, read at the ideal instance (`lit`): both programs print the
  same words, so none is ever evaluated here.
-/
import Idealize.ShloMosaic.PureOps.Ideal
import Idealize.ShloMosaic.Lib.ValueIdx

noncomputable section

namespace Cert.Idm

open Idealize.ShloMosaic Idealize.ShloMosaic.ValueIdx

/-- A 32-bit float word read as the extended real it denotes. -/
abbrev lit (w : BitVec 32) : EReal := Ideal.ofBits .f32 w

/-- The desired gap: jam distance, plus the time gap at the current speed, plus the braking term
    `vel · dv / (2 · √(amax · amin))`. -/
def gap (vel dv tgap jam amax amin : EReal) : EReal :=
  (jam + tgap * vel) + Ideal.div (vel * dv) (lit 0x40000000#32 * Ideal.sqrt (amax * amin))

/-- The intelligent-driver-model acceleration toward one vehicle ahead, clipped to [−3.5, 3.5]. -/
def accel (vel dv dx vdes tgap jam amax amin : EReal) : EReal :=
  min (lit 0x40600000#32) (max (lit 0xC0600000#32)
    (amax * ((lit 0x3F800000#32
        - (Ideal.div vel vdes * Ideal.div vel vdes) * (Ideal.div vel vdes * Ideal.div vel vdes))
      - Ideal.div (gap vel dv tgap jam amax amin) dx * Ideal.div (gap vel dv tgap jam amax amin) dx)))

/-- The score of one feature row at output position `t`: a hidden layer of 100 affine units over the 128
    features, then one affine unit per position over the hidden layer. -/
def logit (x : Fin 128 → EReal) (W1 : Fin 128 → Fin 100 → EReal) (b1 : Fin 100 → EReal)
    (W2 : Fin 100 → Fin 40 → EReal) (b2 : Fin 40 → EReal) (t : Fin 40) : EReal :=
  (∑ j : Fin 100, ((∑ k : Fin 128, x k * W1 k j) + b1 j) * W2 j t) + b2 t

/-- The gate: the logistic function of five times the score. -/
def gate (z : EReal) : EReal := Ideal.logistic (lit 0x40A00000#32 * z)

/-- The mixture of the two accelerations by the gate. -/
def blend (g fl fm : EReal) : EReal := g * fl + (lit 0x3F800000#32 - g) * fm

/-! ## The two results as whole arrays of the seven arguments -/

/-- The gate of sample `b` at position `t`, from the feature rows and the two layers' weights and biases. -/
def gateAt (dec : (⟨2, ![262144, 128]⟩ : Shape).Idx → EReal) (W1 : (⟨2, ![128, 100]⟩ : Shape).Idx → EReal)
    (b1 : (⟨1, ![100]⟩ : Shape).Idx → EReal) (W2 : (⟨2, ![100, 40]⟩ : Shape).Idx → EReal)
    (b2 : (⟨1, ![40]⟩ : Shape).Idx → EReal) (b : Fin 262144) (t : Fin 40) : EReal :=
  gate (logit (fun k => dec (ix2 b k)) (fun k j => W1 (ix2 k j)) (fun j => b1 (ix1 j))
    (fun j t => W2 (ix2 j t)) (fun t => b2 (ix1 t)) t)

/-- The acceleration of sample `b` at position `t` toward the vehicle whose closing speed and gap are state
    channels `cv` and `cx` (the leader: 2 and 3; the merging vehicle: 5 and 6); channel 0 is the follower's speed. -/
def accelAt (s : (⟨3, ![262144, 40, 7]⟩ : Shape).Idx → EReal) (p : (⟨2, ![262144, 5]⟩ : Shape).Idx → EReal)
    (cv cx : Fin 7) (b : Fin 262144) (t : Fin 40) : EReal :=
  accel (s (ix3 b t 0)) (s (ix3 b t cv)) (s (ix3 b t cx))
    (p (ix2 b 0)) (p (ix2 b 1)) (p (ix2 b 2)) (p (ix2 b 3)) (p (ix2 b 4))

/-- The second result, the gates, as an array of shape [262144, 40, 1]. -/
def gates (dec : (⟨2, ![262144, 128]⟩ : Shape).Idx → EReal) (W1 : (⟨2, ![128, 100]⟩ : Shape).Idx → EReal)
    (b1 : (⟨1, ![100]⟩ : Shape).Idx → EReal) (W2 : (⟨2, ![100, 40]⟩ : Shape).Idx → EReal)
    (b2 : (⟨1, ![40]⟩ : Shape).Idx → EReal) : (⟨3, ![262144, 40, 1]⟩ : Shape).Idx → EReal :=
  fun i => gateAt dec W1 b1 W2 b2 (i 0) (i 1)

/-- The first result, the mixed accelerations, as an array of shape [262144, 40, 1]. -/
def mixed (s : (⟨3, ![262144, 40, 7]⟩ : Shape).Idx → EReal) (p : (⟨2, ![262144, 5]⟩ : Shape).Idx → EReal)
    (dec : (⟨2, ![262144, 128]⟩ : Shape).Idx → EReal) (W1 : (⟨2, ![128, 100]⟩ : Shape).Idx → EReal)
    (b1 : (⟨1, ![100]⟩ : Shape).Idx → EReal) (W2 : (⟨2, ![100, 40]⟩ : Shape).Idx → EReal)
    (b2 : (⟨1, ![40]⟩ : Shape).Idx → EReal) : (⟨3, ![262144, 40, 1]⟩ : Shape).Idx → EReal :=
  fun i => blend (gateAt dec W1 b1 W2 b2 (i 0) (i 1)) (accelAt s p 2 3 (i 0) (i 1)) (accelAt s p 5 6 (i 0) (i 1))

end Cert.Idm

end
-- ==== Proof.PayloadIsIdm.lean ====
/-
  The arithmetic the kernel's body stores, read at one sample `r` of a block of 4096 and one position `t` of 40, is the
  specification's: the gate is the logistic function of five times the two-layer score of the sample's feature row,
  and the stored acceleration is the gate's mixture of the intelligent-driver-model law toward the leader and toward the
  merging vehicle.

  Every pointwise operation reads through at an index by computation. Three kinds of operation do not: a cast to the
  same shape (the identity), a column of per-sample parameters or a row of biases spread over the block (the
  parameter of the sample, the bias of the position), and the two matrix products into a zero accumulator (the plain
  sum over the one contracted axis). One lemma each, then the payloads one by one from the outermost inwards.
-/
import proofs.«412750_j77360950935639_3_alg».proof.Proof.Gen.KernelIdeal.Skeleton
import proofs.«412750_j77360950935639_3_alg».proof.Proof.IdmSpec
import Idealize.ShloMosaic.Lib.Pipeline.Value
import Idealize.ShloMosaic.Lib.ValueIdx
import Idealize.ShloMosaic.Lib.ValueLayout
import Idealize.ShloMosaic.PureOps.Ideal.Laws

noncomputable section

namespace Cert.IdmKernel

open Idealize.ShloMosaic Idealize.ShloMosaic.ValueIdx Idealize.SL.Sem
open Cert.KernelIdeal Cert.KernelIdeal.Gen

/-! ## The layout operations of the block, read at a sample `r` and a position `t` -/

/-- A column of per-sample values spread over the 40 positions reads, at `(r, t)`, the sample's value. -/
theorem column_apply {α : Type} (v : S4096x1.Idx → α) (h : S4096x1.Broadcasts S4096x40) (r : Fin 4096) (t : Fin 40) :
    broadcastTo S4096x40 v h (ix2 r t) = v (ix2 r (0 : Fin 1)) := by
  refine broadcastTo_apply v h (ix2 r t) (ix2 r (0 : Fin 1)) fun ax => ?_
  match ax with
  | ⟨0, _⟩ => rfl
  | ⟨1, _⟩ => rfl

/-- The hidden layer's bias row spread over the samples reads, at `(r, j)`, the bias of unit `j`. -/
theorem row100_apply {α : Type} (v : S1x100.Idx → α) (h : S1x100.Broadcasts S4096x100) (r : Fin 4096) (j : Fin 100) :
    broadcastTo S4096x100 v h (ix2 r j) = v (ix2 (0 : Fin 1) j) :=
  broadcastTo_1b_ab_apply v h r j

/-- The output layer's bias row spread over the samples reads, at `(r, t)`, the bias of position `t`. -/
theorem row40_apply {α : Type} (v : S1x40.Idx → α) (h : S1x40.Broadcasts S4096x40) (r : Fin 4096) (t : Fin 40) :
    broadcastTo S4096x40 v h (ix2 r t) = v (ix2 (0 : Fin 1) t) :=
  broadcastTo_1b_ab_apply v h r t

/-! ## The two matrix products into a zero accumulator, read at an index

Each is the plain sum over its one contracted axis: the feature axis for the hidden layer, the hidden axis for the
output layer. -/

theorem lhs_hidden_0 (i : S4096x100.Idx) (q : dot_S4096x128_S128x100_S4096x100_1_0_0_1_n_n.contr.Idx) :
    (dot_S4096x128_S128x100_S4096x100_1_0_0_1_n_n.lhsIdx i q 0).val = (i 0).val := by
  unfold DotDims.lhsIdx
  rw [dif_neg (show ¬(0 : Fin S4096x128.rank) ∈ dot_S4096x128_S128x100_S4096x100_1_0_0_1_n_n.lhsBatch by decide), dif_pos (show (0 : Fin S4096x128.rank) ∈ dot_S4096x128_S128x100_S4096x100_1_0_0_1_n_n.lhsNonContracting by decide)]
  rfl
theorem lhs_hidden_1 (i : S4096x100.Idx) (q : dot_S4096x128_S128x100_S4096x100_1_0_0_1_n_n.contr.Idx) :
    (dot_S4096x128_S128x100_S4096x100_1_0_0_1_n_n.lhsIdx i q 1).val = (q ⟨0, by decide⟩).val :=
  dot_S4096x128_S128x100_S4096x100_1_0_0_1_n_n.lhsIdx_val_of_single rfl i q
theorem rhs_hidden_0 (i : S4096x100.Idx) (q : dot_S4096x128_S128x100_S4096x100_1_0_0_1_n_n.contr.Idx) :
    (dot_S4096x128_S128x100_S4096x100_1_0_0_1_n_n.rhsIdx i q 0).val = (q ⟨0, by decide⟩).val :=
  dot_S4096x128_S128x100_S4096x100_1_0_0_1_n_n.rhsIdx_val_of_single rfl i q
theorem rhs_hidden_1 (i : S4096x100.Idx) (q : dot_S4096x128_S128x100_S4096x100_1_0_0_1_n_n.contr.Idx) :
    (dot_S4096x128_S128x100_S4096x100_1_0_0_1_n_n.rhsIdx i q 1).val = (i 1).val := by
  unfold DotDims.rhsIdx
  rw [dif_neg (show ¬(1 : Fin S128x100.rank) ∈ dot_S4096x128_S128x100_S4096x100_1_0_0_1_n_n.rhsBatch by decide), dif_pos (show (1 : Fin S128x100.rank) ∈ dot_S4096x128_S128x100_S4096x100_1_0_0_1_n_n.rhsNonContracting by decide)]
  rfl

/-- The hidden layer's product at sample `r` and unit `j`: the sum over the 128 features. -/
theorem hidden_apply (x : FVec Ideal S4096x128 .f32) (w : FVec Ideal S128x100 .f32) (r : Fin 4096) (j : Fin 100) :
    matmul (F := Ideal) dot_S4096x128_S128x100_S4096x100_1_0_0_1_n_n none x w (constant (F := Ideal) S4096x100 .f32 0x00000000#32) (ix2 r j)
      = ∑ k : Fin 128, x (ix2 r k) * w (ix2 k j) := by
  simp only [matmul]
  rw [Ideal.matmul_constant_zero_apply, ← Equiv.sum_comp (contrEquiv1 dot_S4096x128_S128x100_S4096x100_1_0_0_1_n_n 128 rfl rfl).symm]
  refine Finset.sum_congr rfl fun k _ => ?_
  have hk := contrEquiv1_symm_val dot_S4096x128_S128x100_S4096x100_1_0_0_1_n_n 128 rfl rfl k
  have el : dot_S4096x128_S128x100_S4096x100_1_0_0_1_n_n.lhsIdx (ix2 r j) ((contrEquiv1 dot_S4096x128_S128x100_S4096x100_1_0_0_1_n_n 128 rfl rfl).symm k) = ix2 r k := funext fun a => Fin.ext (by
    match a with
    | ⟨0, _⟩ => exact lhs_hidden_0 _ _
    | ⟨1, _⟩ => exact (lhs_hidden_1 _ _).trans hk)
  have er : dot_S4096x128_S128x100_S4096x100_1_0_0_1_n_n.rhsIdx (ix2 r j) ((contrEquiv1 dot_S4096x128_S128x100_S4096x100_1_0_0_1_n_n 128 rfl rfl).symm k) = ix2 k j := funext fun a => Fin.ext (by
    match a with
    | ⟨0, _⟩ => exact (rhs_hidden_0 _ _).trans hk
    | ⟨1, _⟩ => exact rhs_hidden_1 _ _)
  rw [el, er]

theorem lhs_output_0 (i : S4096x40.Idx) (q : dot_S4096x100_S100x40_S4096x40_1_0_0_1_n_n.contr.Idx) :
    (dot_S4096x100_S100x40_S4096x40_1_0_0_1_n_n.lhsIdx i q 0).val = (i 0).val := by
  unfold DotDims.lhsIdx
  rw [dif_neg (show ¬(0 : Fin S4096x100.rank) ∈ dot_S4096x100_S100x40_S4096x40_1_0_0_1_n_n.lhsBatch by decide), dif_pos (show (0 : Fin S4096x100.rank) ∈ dot_S4096x100_S100x40_S4096x40_1_0_0_1_n_n.lhsNonContracting by decide)]
  rfl
theorem lhs_output_1 (i : S4096x40.Idx) (q : dot_S4096x100_S100x40_S4096x40_1_0_0_1_n_n.contr.Idx) :
    (dot_S4096x100_S100x40_S4096x40_1_0_0_1_n_n.lhsIdx i q 1).val = (q ⟨0, by decide⟩).val :=
  dot_S4096x100_S100x40_S4096x40_1_0_0_1_n_n.lhsIdx_val_of_single rfl i q
theorem rhs_output_0 (i : S4096x40.Idx) (q : dot_S4096x100_S100x40_S4096x40_1_0_0_1_n_n.contr.Idx) :
    (dot_S4096x100_S100x40_S4096x40_1_0_0_1_n_n.rhsIdx i q 0).val = (q ⟨0, by decide⟩).val :=
  dot_S4096x100_S100x40_S4096x40_1_0_0_1_n_n.rhsIdx_val_of_single rfl i q
theorem rhs_output_1 (i : S4096x40.Idx) (q : dot_S4096x100_S100x40_S4096x40_1_0_0_1_n_n.contr.Idx) :
    (dot_S4096x100_S100x40_S4096x40_1_0_0_1_n_n.rhsIdx i q 1).val = (i 1).val := by
  unfold DotDims.rhsIdx
  rw [dif_neg (show ¬(1 : Fin S100x40.rank) ∈ dot_S4096x100_S100x40_S4096x40_1_0_0_1_n_n.rhsBatch by decide), dif_pos (show (1 : Fin S100x40.rank) ∈ dot_S4096x100_S100x40_S4096x40_1_0_0_1_n_n.rhsNonContracting by decide)]
  rfl

/-- The output layer's product at sample `r` and position `t`: the sum over the 100 hidden units. -/
theorem output_apply (x : FVec Ideal S4096x100 .f32) (w : FVec Ideal S100x40 .f32) (r : Fin 4096) (t : Fin 40) :
    matmul (F := Ideal) dot_S4096x100_S100x40_S4096x40_1_0_0_1_n_n none x w (constant (F := Ideal) S4096x40 .f32 0x00000000#32) (ix2 r t)
      = ∑ j : Fin 100, x (ix2 r j) * w (ix2 j t) := by
  simp only [matmul]
  rw [Ideal.matmul_constant_zero_apply, ← Equiv.sum_comp (contrEquiv1 dot_S4096x100_S100x40_S4096x40_1_0_0_1_n_n 100 rfl rfl).symm]
  refine Finset.sum_congr rfl fun j _ => ?_
  have hk := contrEquiv1_symm_val dot_S4096x100_S100x40_S4096x40_1_0_0_1_n_n 100 rfl rfl j
  have el : dot_S4096x100_S100x40_S4096x40_1_0_0_1_n_n.lhsIdx (ix2 r t) ((contrEquiv1 dot_S4096x100_S100x40_S4096x40_1_0_0_1_n_n 100 rfl rfl).symm j) = ix2 r j := funext fun a => Fin.ext (by
    match a with
    | ⟨0, _⟩ => exact lhs_output_0 _ _
    | ⟨1, _⟩ => exact (lhs_output_1 _ _).trans hk)
  have er : dot_S4096x100_S100x40_S4096x40_1_0_0_1_n_n.rhsIdx (ix2 r t) ((contrEquiv1 dot_S4096x100_S100x40_S4096x40_1_0_0_1_n_n 100 rfl rfl).symm j) = ix2 j t := funext fun a => Fin.ext (by
    match a with
    | ⟨0, _⟩ => exact (rhs_output_0 _ _).trans hk
    | ⟨1, _⟩ => exact rhs_output_1 _ _)
  rw [el, er]

/-! ## The payloads at a sample `r` and a position `t`

The state channels are `v0` (speed), `v2`, `v4` (closing speed and gap to the leader), `v6`, `v8` (the same to the merging
vehicle); the driver's parameters are the columns `v10` … `v14` (desired speed, time gap, jam distance, maximal
acceleration, comfortable deceleration). -/

open Cert.Idm in
/-- The gate's payload: the logistic function of the scale times the score, lane by lane. -/
theorem pay1_apply (z c : FVec Ideal S4096x40 .f32) (i : S4096x40.Idx) :
    k0_pay1 (F := Ideal) z c i = Ideal.logistic (c i * z i) := rfl

open Cert.Idm in
/-- The mixture's payload: the gate times the first acceleration plus one minus the gate times the second. -/
theorem pay2_apply (a b z c : FVec Ideal S4096x40 .f32) (i : S4096x40.Idx) :
    k0_pay2 (F := Ideal) a b z c i
      = k0_pay1 (F := Ideal) z c i * a i + (lit 0x3F800000#32 - k0_pay1 (F := Ideal) z c i) * b i := rfl

/-- The three same-shape casts of state channels are the channels. -/
theorem pay3_eq (v0 : Vec Ideal S4096x40 .f32) : k0_pay3 (F := Ideal) v0 = v0 := shapeCast_self v0 _
theorem pay4_eq (v6 : Vec Ideal S4096x40 .f32) : k0_pay4 (F := Ideal) v6 = v6 := shapeCast_self v6 _
theorem pay5_eq (v8 : Vec Ideal S4096x40 .f32) : k0_pay5 (F := Ideal) v8 = v8 := shapeCast_self v8 _

open Cert.Idm in
/-- The braking term's denominator, per sample: twice the root of the product of the two acceleration parameters. -/
theorem pay6_apply (v13 v14 : Vec Ideal S4096x1 .f32) (i : S4096x1.Idx) :
    k0_pay6 (F := Ideal) v13 v14 i = lit 0x40000000#32 * Ideal.sqrt (v13 i * v14 i) := rfl

/-- The maximal acceleration spread over the positions. -/
theorem pay8_apply (v13 : Vec Ideal S4096x1 .f32) (r : Fin 4096) (t : Fin 40) :
    k0_pay8 (F := Ideal) v13 (ix2 r t) = v13 (ix2 r (0 : Fin 1)) := column_apply v13 broadcasts_S4096x1_S4096x40 r t

open Cert.Idm in
/-- The clip of the maximal acceleration times the bracket to [−3.5, 3.5]. -/
theorem pay9_apply (a b : FVec Ideal S4096x40 .f32) (i : S4096x40.Idx) :
    k0_pay9 (F := Ideal) a b i = min (lit 0x40600000#32) (max (lit 0xC0600000#32) (b i * a i)) := rfl

open Cert.Idm in
/-- The bracket of the law toward the leader: one minus the fourth power of the speed ratio minus the square of the
    desired gap over the actual one. -/
theorem pay7_apply (v0 v2 v4 : Vec Ideal S4096x40 .f32) (v10 v11 v12 v13 v14 : Vec Ideal S4096x1 .f32)
    (r : Fin 4096) (t : Fin 40) :
    k0_pay7 (F := Ideal) v0 v2 v4 v10 v11 v12 v13 v14 (ix2 r t)
      = (lit 0x3F800000#32
          - (Ideal.div (v0 (ix2 r t)) (v10 (ix2 r 0)) * Ideal.div (v0 (ix2 r t)) (v10 (ix2 r 0)))
            * (Ideal.div (v0 (ix2 r t)) (v10 (ix2 r 0)) * Ideal.div (v0 (ix2 r t)) (v10 (ix2 r 0))))
        - Ideal.div (gap (v0 (ix2 r t)) (v2 (ix2 r t)) (v11 (ix2 r 0)) (v12 (ix2 r 0)) (v13 (ix2 r 0)) (v14 (ix2 r 0))) (v4 (ix2 r t))
          * Ideal.div (gap (v0 (ix2 r t)) (v2 (ix2 r t)) (v11 (ix2 r 0)) (v12 (ix2 r 0)) (v13 (ix2 r 0)) (v14 (ix2 r 0))) (v4 (ix2 r t)) := by
  unfold k0_pay7
  simp only [mulf_apply, addf_apply, subf_apply, divf_apply, broadcast_apply, column_apply, shapeCast_self, pay3_eq,
    pay6_apply]
  rfl

open Cert.Idm in
/-- The clipped law toward the merging vehicle, over the values the first half of the body hands on. -/
theorem pay10_apply (v1 v7 v9 : FVec Ideal S4096x40 .f32) (v10 v11 v12 v13 : Vec Ideal S4096x1 .f32)
    (v18 : FVec Ideal S4096x1 .f32) (r : Fin 4096) (t : Fin 40) :
    k0_pay10 (F := Ideal) v1 v7 v9 v10 v11 v12 v13 v18 (ix2 r t)
      = min (lit 0x40600000#32) (max (lit 0xC0600000#32)
          (v13 (ix2 r 0) * ((lit 0x3F800000#32
              - (Ideal.div (v1 (ix2 r t)) (v10 (ix2 r 0)) * Ideal.div (v1 (ix2 r t)) (v10 (ix2 r 0)))
                * (Ideal.div (v1 (ix2 r t)) (v10 (ix2 r 0)) * Ideal.div (v1 (ix2 r t)) (v10 (ix2 r 0))))
            - Ideal.div ((v12 (ix2 r 0) + v11 (ix2 r 0) * v1 (ix2 r t)) + Ideal.div (v1 (ix2 r t) * v7 (ix2 r t)) (v18 (ix2 r 0))) (v9 (ix2 r t))
              * Ideal.div ((v12 (ix2 r 0) + v11 (ix2 r 0) * v1 (ix2 r t)) + Ideal.div (v1 (ix2 r t) * v7 (ix2 r t)) (v18 (ix2 r 0))) (v9 (ix2 r t))))) := by
  unfold k0_pay10
  simp only [mulf_apply, addf_apply, subf_apply, divf_apply, maximumf_apply, minimumf_apply, broadcast_apply, column_apply]
  rfl

open Cert.Idm in
/-- The scale of the score: the same word at every lane. -/
theorem pay12_apply (i : S4096x40.Idx) : k0_pay12 (F := Ideal) i = lit 0x40A00000#32 := rfl

open Cert.Idm in
/-- The score's payload: the hidden layer's product plus its bias row, through the output layer's product, plus the
    output bias row. -/
theorem pay11_apply (v65 : Vec Ideal S4096x128 .f32) (v66 : Vec Ideal S128x100 .f32) (v68 : Vec Ideal S1x100 .f32)
    (v72 : Vec Ideal S100x40 .f32) (v74 : Vec Ideal S1x40 .f32) (r : Fin 4096) (t : Fin 40) :
    k0_pay11 (F := Ideal) v65 v66 v68 v72 v74 (ix2 r t)
      = logit (fun k => v65 (ix2 r k)) (fun k j => v66 (ix2 k j)) (fun j => v68 (ix2 0 j))
          (fun j t => v72 (ix2 j t)) (fun t => v74 (ix2 0 t)) t := by
  unfold k0_pay11 logit
  simp only [addf_apply, shapeCast_self]
  rw [output_apply, row40_apply]
  refine congrArg (· + v74 (ix2 0 t)) (Finset.sum_congr rfl fun j _ => ?_)
  rw [addf_apply, hidden_apply, row100_apply]

section Results

variable (v0 v2 v4 v6 v8 : Vec Ideal S4096x40 .f32) (v10 v11 v12 v13 v14 : Vec Ideal S4096x1 .f32)
  (v65 : Vec Ideal S4096x128 .f32) (v66 : Vec Ideal S128x100 .f32) (v68 : Vec Ideal S1x100 .f32)
  (v72 : Vec Ideal S100x40 .f32) (v74 : Vec Ideal S1x40 .f32) (r : Fin 4096) (t : Fin 40)

/-- THE GATE THE BODY STORES, at sample `r` and position `t`: the gate of the score of the sample's feature row. -/
theorem pay_gate : k0_pay1 (F := Ideal) (k0_pay11 v65 v66 v68 v72 v74) k0_pay12 (ix2 r t)
      = Cert.Idm.gate (Cert.Idm.logit (fun k => v65 (ix2 r k)) (fun k j => v66 (ix2 k j)) (fun j => v68 (ix2 0 j)) (fun j t => v72 (ix2 j t)) (fun t => v74 (ix2 0 t)) t) := by
  rw [pay1_apply, pay11_apply, pay12_apply]
  rfl

/-- THE MIXED ACCELERATION THE BODY STORES, at sample `r` and position `t`: the gate's mixture of the law toward the
    leader and the law toward the merging vehicle. -/
theorem pay_mixed : k0_pay2 (F := Ideal) (k0_pay9 (k0_pay7 v0 v2 v4 v10 v11 v12 v13 v14) (k0_pay8 v13)) (k0_pay10 (k0_pay3 v0) (k0_pay4 v6) (k0_pay5 v8) v10 v11 v12 v13 (k0_pay6 v13 v14)) (k0_pay11 v65 v66 v68 v72 v74) k0_pay12 (ix2 r t)
      = Cert.Idm.blend (Cert.Idm.gate (Cert.Idm.logit (fun k => v65 (ix2 r k)) (fun k j => v66 (ix2 k j)) (fun j => v68 (ix2 0 j)) (fun j t => v72 (ix2 j t)) (fun t => v74 (ix2 0 t)) t))
          (Cert.Idm.accel (v0 (ix2 r t)) (v2 (ix2 r t)) (v4 (ix2 r t)) (v10 (ix2 r 0)) (v11 (ix2 r 0)) (v12 (ix2 r 0)) (v13 (ix2 r 0)) (v14 (ix2 r 0)))
          (Cert.Idm.accel (v0 (ix2 r t)) (v6 (ix2 r t)) (v8 (ix2 r t)) (v10 (ix2 r 0)) (v11 (ix2 r 0)) (v12 (ix2 r 0)) (v13 (ix2 r 0)) (v14 (ix2 r 0))) := by
  rw [pay2_apply, pay_gate, pay9_apply, pay8_apply, pay7_apply, pay10_apply, pay3_eq, pay4_eq, pay5_eq, pay6_apply]
  rfl

end Results

end Cert.IdmKernel

end
-- ==== Proof.StackedChannels.lean ====
/-
  The stacked state array the kernel's program builds before its region: of the seven state channels it keeps five —
  the follower's speed (channel 0), the closing speed and the gap to the leader (2, 3), the closing speed and the gap
  to the merging vehicle (5, 6) — and lays them side by side, forty positions per channel, one row of 200 per sample.
  Column `40 k + t` of sample `b` is position `t` of the `k`-th kept channel of that sample.
-/
import proofs.«412750_j77360950935639_3_alg».proof.Proof.Gen.KernelIdeal
import Idealize.ShloMosaic.Lib.Pipeline.Value
import Idealize.ShloMosaic.Lib.ValueIdx

noncomputable section

namespace Cert.IdmStacked

open Cert.KernelIdeal Cert.KernelIdeal.Gen Idealize.ShloMosaic Idealize.ShloMosaic.ValueIdx

variable {F : FTy → Type} [FloatOps F]

/-- State channel 0 of every sample, as a [262144, 1, 40] slab: sliced out, its unit axis dropped, a unit axis put back
    in the middle. -/
def slab0 (x0 : (⟨S262144x40x7, .f32⟩ : BufTy).Contents (Elt F)) : (⟨S262144x1x40, .f32⟩ : BufTy).Contents (Elt F) :=
  broadcastInDim S262144x1x40 ![0, 2] bcast_S262144x40_S262144x1x40_0_2
    (shapeCast S262144x40 (extractStridedSlice S262144x40x1 ![0, 0, 0] x0 slices_S262144x40x7_S262144x40x1_0_0_0) shapeCasts_S262144x40x1_S262144x40)
/-- State channel 2 of every sample, as a [262144, 1, 40] slab: sliced out, its unit axis dropped, a unit axis put back
    in the middle. -/
def slab2 (x0 : (⟨S262144x40x7, .f32⟩ : BufTy).Contents (Elt F)) : (⟨S262144x1x40, .f32⟩ : BufTy).Contents (Elt F) :=
  broadcastInDim S262144x1x40 ![0, 2] bcast_S262144x40_S262144x1x40_0_2
    (shapeCast S262144x40 (extractStridedSlice S262144x40x1 ![0, 0, 2] x0 slices_S262144x40x7_S262144x40x1_0_0_2) shapeCasts_S262144x40x1_S262144x40)
/-- State channel 3 of every sample, as a [262144, 1, 40] slab: sliced out, its unit axis dropped, a unit axis put back
    in the middle. -/
def slab3 (x0 : (⟨S262144x40x7, .f32⟩ : BufTy).Contents (Elt F)) : (⟨S262144x1x40, .f32⟩ : BufTy).Contents (Elt F) :=
  broadcastInDim S262144x1x40 ![0, 2] bcast_S262144x40_S262144x1x40_0_2
    (shapeCast S262144x40 (extractStridedSlice S262144x40x1 ![0, 0, 3] x0 slices_S262144x40x7_S262144x40x1_0_0_3) shapeCasts_S262144x40x1_S262144x40)
/-- State channel 5 of every sample, as a [262144, 1, 40] slab: sliced out, its unit axis dropped, a unit axis put back
    in the middle. -/
def slab5 (x0 : (⟨S262144x40x7, .f32⟩ : BufTy).Contents (Elt F)) : (⟨S262144x1x40, .f32⟩ : BufTy).Contents (Elt F) :=
  broadcastInDim S262144x1x40 ![0, 2] bcast_S262144x40_S262144x1x40_0_2
    (shapeCast S262144x40 (extractStridedSlice S262144x40x1 ![0, 0, 5] x0 slices_S262144x40x7_S262144x40x1_0_0_5) shapeCasts_S262144x40x1_S262144x40)
/-- State channel 6 of every sample, as a [262144, 1, 40] slab: sliced out, its unit axis dropped, a unit axis put back
    in the middle. -/
def slab6 (x0 : (⟨S262144x40x7, .f32⟩ : BufTy).Contents (Elt F)) : (⟨S262144x1x40, .f32⟩ : BufTy).Contents (Elt F) :=
  broadcastInDim S262144x1x40 ![0, 2] bcast_S262144x40_S262144x1x40_0_2
    (shapeCast S262144x40 (extractStridedSlice S262144x40x1 ![0, 0, 6] x0 slices_S262144x40x7_S262144x40x1_0_0_6) shapeCasts_S262144x40x1_S262144x40)

/-- The five slabs joined along the middle axis and flattened to rows of 200. -/
def stacked (x0 : (⟨S262144x40x7, .f32⟩ : BufTy).Contents (Elt F)) : (⟨S262144x200, .f32⟩ : BufTy).Contents (Elt F) :=
  shapeCast S262144x200
    (concatenate S262144x5x40 1 [⟨S262144x1x40, slab0 x0⟩, ⟨S262144x1x40, slab2 x0⟩, ⟨S262144x1x40, slab3 x0⟩, ⟨S262144x1x40, slab5 x0⟩, ⟨S262144x1x40, slab6 x0⟩]
      concatenates_S262144x1x40_S262144x1x40_S262144x1x40_S262144x1x40_S262144x1x40_S262144x5x40_d1)
    shapeCasts_S262144x5x40_S262144x200

/-! ## The two steps, once for every channel -/

/-- A slab read at sample `b`, its unit axis and position `t`: the state array at `(b, t, ch)`, `ch` the channel the slice
    starts at. The unit axis put back in the middle is not read; the cast that drops the trailing unit axis keeps the
    row-major position `40 b + t`; the slice shifts the last coordinate by its offset. -/
theorem slab_apply (c : Nat) (x0 : (⟨S262144x40x7, .f32⟩ : BufTy).Contents (Elt F))
    (hs : S262144x40x7.Slices ![0, 0, c] S262144x40x1) (b : Fin 262144) (u : Fin 1) (t : Fin 40) (ch : Fin 7) (hc : ch.val = c) :
    broadcastInDim S262144x1x40 ![0, 2] bcast_S262144x40_S262144x1x40_0_2
      (shapeCast S262144x40 (extractStridedSlice S262144x40x1 ![0, 0, c] x0 hs) shapeCasts_S262144x40x1_S262144x40) (ix3 b u t)
      = x0 (ix3 b t ch) := by
  refine (broadcastInDim_apply _ bcast_S262144x40_S262144x1x40_0_2 _ (ix3 b u t) (ix2 b t) (fun a => match a with
    | ⟨0, _⟩ => by show b.val = if (262144 : Nat) = 1 then 0 else b.val; rw [if_neg (by decide)]
    | ⟨1, _⟩ => by show t.val = if (40 : Nat) = 1 then 0 else t.val; rw [if_neg (by decide)])).trans ?_
  refine (shapeCast_apply _ shapeCasts_S262144x40x1_S262144x40 (ix2 b t) (ix3 b t (0 : Fin 1)) (by
    rw [Shape.rowMajor_val_three, Shape.rowMajor_val_two]
    show (b.val * 40 + t.val) * 1 + 0 = b.val * 40 + t.val
    omega)).trans ?_
  exact extractStridedSlice_apply _ x0 hs (ix3 b t (0 : Fin 1)) (ix3 b t ch) (fun a => match a with
    | ⟨0, _⟩ => by show b.val = 0 + b.val; omega
    | ⟨1, _⟩ => by show t.val = 0 + t.val; omega
    | ⟨2, _⟩ => by show ch.val = c + 0; omega)

/-- The flattened array at row `b` and column `40 n + t` is the joined array at `(b, n, t)`: the same row-major
    position. -/
theorem stacked_eq_joined (x0 : (⟨S262144x40x7, .f32⟩ : BufTy).Contents (Elt F)) (j : S262144x200.Idx)
    (b : Fin 262144) (n : Fin 5) (t : Fin 40) (hb : (j 0).val = b.val) (hj : (j 1).val = 40 * n.val + t.val) :
    stacked x0 j
      = concatenate S262144x5x40 1 [⟨S262144x1x40, slab0 x0⟩, ⟨S262144x1x40, slab2 x0⟩, ⟨S262144x1x40, slab3 x0⟩, ⟨S262144x1x40, slab5 x0⟩, ⟨S262144x1x40, slab6 x0⟩]
          concatenates_S262144x1x40_S262144x1x40_S262144x1x40_S262144x1x40_S262144x1x40_S262144x5x40_d1 (ix3 b n t) := by
  unfold stacked
  exact shapeCast_apply _ shapeCasts_S262144x5x40_S262144x200 j (ix3 b n t) (by
    rw [Shape.rowMajor_val_three, Shape.rowMajor_val_two]
    show (b.val * 5 + n.val) * 40 + t.val = (j 0).val * 200 + (j 1).val
    omega)

/-- The joined array at `(b, n, t)` is its `n`-th piece at `(b, 0, t)`: every piece has extent 1 on the joined axis, so
    `n` pieces come before the `n`-th. -/
theorem joined_apply {α : Type} (p0 p1 p2 p3 p4 : S262144x1x40.Idx → α)
    (h : Shape.Concatenates (([⟨S262144x1x40, p0⟩, ⟨S262144x1x40, p1⟩, ⟨S262144x1x40, p2⟩, ⟨S262144x1x40, p3⟩, ⟨S262144x1x40, p4⟩] :
      List ((s : Shape) × (s.Idx → α))).map (·.1)) S262144x5x40 1)
    (b : Fin 262144) (n : Fin 5) (t : Fin 40) (p : S262144x1x40.Idx → α)
    (hp : ([⟨S262144x1x40, p0⟩, ⟨S262144x1x40, p1⟩, ⟨S262144x1x40, p2⟩, ⟨S262144x1x40, p3⟩, ⟨S262144x1x40, p4⟩] :
      List ((s : Shape) × (s.Idx → α)))[n.val]'(n.isLt) = ⟨S262144x1x40, p⟩) :
    concatenate S262144x5x40 1 [⟨S262144x1x40, p0⟩, ⟨S262144x1x40, p1⟩, ⟨S262144x1x40, p2⟩, ⟨S262144x1x40, p3⟩, ⟨S262144x1x40, p4⟩] h (ix3 b n t)
      = p (ix3 b (0 : Fin 1) t) := by
  refine concatenate_apply_piece 1 _ h (ix3 b n t) n.val n.isLt S262144x1x40 p hp rfl n.val ?_ (ix3 b (0 : Fin 1) t) ?_ ?_
  · match n with
    | ⟨0, _⟩ => rfl
    | ⟨1, _⟩ => rfl
    | ⟨2, _⟩ => rfl
    | ⟨3, _⟩ => rfl
    | ⟨4, _⟩ => rfl
  · intro a ha
    match a with
    | ⟨0, _⟩ => rfl
    | ⟨1, _⟩ => exact absurd rfl ha
    | ⟨2, _⟩ => rfl
  · show n.val + 0 = n.val
    omega

/-! ## The five column ranges -/

/-- Columns 0 … 39 of the stacked array are channel 0. -/
theorem stacked_chan0 (x0 : (⟨S262144x40x7, .f32⟩ : BufTy).Contents (Elt F)) (j : S262144x200.Idx) (b : Fin 262144) (t : Fin 40)
    (hb : (j 0).val = b.val) (hj : (j 1).val = 0 + t.val) : stacked x0 j = x0 (ix3 b t 0) := by
  refine (stacked_eq_joined x0 j b (0 : Fin 5) t hb (by show (j 1).val = 40 * 0 + t.val; omega)).trans ?_
  refine (joined_apply (slab0 x0) (slab2 x0) (slab3 x0) (slab5 x0) (slab6 x0) _ b (0 : Fin 5) t (slab0 x0) rfl).trans ?_
  exact slab_apply 0 x0 _ b 0 t 0 rfl
/-- Columns 40 … 79 of the stacked array are channel 2. -/
theorem stacked_chan1 (x0 : (⟨S262144x40x7, .f32⟩ : BufTy).Contents (Elt F)) (j : S262144x200.Idx) (b : Fin 262144) (t : Fin 40)
    (hb : (j 0).val = b.val) (hj : (j 1).val = 40 + t.val) : stacked x0 j = x0 (ix3 b t 2) := by
  refine (stacked_eq_joined x0 j b (1 : Fin 5) t hb (by show (j 1).val = 40 * 1 + t.val; omega)).trans ?_
  refine (joined_apply (slab0 x0) (slab2 x0) (slab3 x0) (slab5 x0) (slab6 x0) _ b (1 : Fin 5) t (slab2 x0) rfl).trans ?_
  exact slab_apply 2 x0 _ b 0 t 2 rfl
/-- Columns 80 … 119 of the stacked array are channel 3. -/
theorem stacked_chan2 (x0 : (⟨S262144x40x7, .f32⟩ : BufTy).Contents (Elt F)) (j : S262144x200.Idx) (b : Fin 262144) (t : Fin 40)
    (hb : (j 0).val = b.val) (hj : (j 1).val = 80 + t.val) : stacked x0 j = x0 (ix3 b t 3) := by
  refine (stacked_eq_joined x0 j b (2 : Fin 5) t hb (by show (j 1).val = 40 * 2 + t.val; omega)).trans ?_
  refine (joined_apply (slab0 x0) (slab2 x0) (slab3 x0) (slab5 x0) (slab6 x0) _ b (2 : Fin 5) t (slab3 x0) rfl).trans ?_
  exact slab_apply 3 x0 _ b 0 t 3 rfl
/-- Columns 120 … 159 of the stacked array are channel 5. -/
theorem stacked_chan3 (x0 : (⟨S262144x40x7, .f32⟩ : BufTy).Contents (Elt F)) (j : S262144x200.Idx) (b : Fin 262144) (t : Fin 40)
    (hb : (j 0).val = b.val) (hj : (j 1).val = 120 + t.val) : stacked x0 j = x0 (ix3 b t 5) := by
  refine (stacked_eq_joined x0 j b (3 : Fin 5) t hb (by show (j 1).val = 40 * 3 + t.val; omega)).trans ?_
  refine (joined_apply (slab0 x0) (slab2 x0) (slab3 x0) (slab5 x0) (slab6 x0) _ b (3 : Fin 5) t (slab5 x0) rfl).trans ?_
  exact slab_apply 5 x0 _ b 0 t 5 rfl
/-- Columns 160 … 199 of the stacked array are channel 6. -/
theorem stacked_chan4 (x0 : (⟨S262144x40x7, .f32⟩ : BufTy).Contents (Elt F)) (j : S262144x200.Idx) (b : Fin 262144) (t : Fin 40)
    (hb : (j 0).val = b.val) (hj : (j 1).val = 160 + t.val) : stacked x0 j = x0 (ix3 b t 6) := by
  refine (stacked_eq_joined x0 j b (4 : Fin 5) t hb (by show (j 1).val = 40 * 4 + t.val; omega)).trans ?_
  refine (joined_apply (slab0 x0) (slab2 x0) (slab3 x0) (slab5 x0) (slab6 x0) _ b (4 : Fin 5) t (slab6 x0) rfl).trans ?_
  exact slab_apply 6 x0 _ b 0 t 6 rfl

end Cert.IdmStacked

end
-- ==== Proof.IdealValue.lean ====
/-
  The idealized kernel's value. The region finds, in the three arrays the host operations wrote, the five kept state
  channels side by side and the two bias vectors as rows (`entry_stacked`, `entry_bias1/2`); so every scalar the body
  loads at a grid point is an entry of an argument array for one of the point's 4096 samples (`…_read`), the value it
  stores at `(r, q)` is the specification's mixed acceleration, or gate, of sample `4096 t + r` at position `q`
  (`written_mixed`, `written_gates`: the body's arithmetic is the specification's by the payload lemmas), every entry of
  the two output arrays is written back by the grid point of its row (`covered7/8`), and the arrays after the last point
  — and, a trailing axis of extent one added, the program's two results — are the specification's (`kernel_run`).
-/
import proofs.«412750_j77360950935639_3_alg».proof.Proof.IdealRun
import proofs.«412750_j77360950935639_3_alg».proof.Proof.PayloadIsIdm
import proofs.«412750_j77360950935639_3_alg».proof.Proof.StackedChannels
import Idealize.ShloMosaic.Lib.Pipeline.Value
import Idealize.ShloMosaic.Lib.StableHlo.Run

set_option maxRecDepth 16384
noncomputable section
namespace Cert.IdmKernel
open Cert.KernelIdeal Cert.KernelIdeal.Gen Cert.KernelIdeal.Staged
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## What the region finds in the arrays the host operations wrote -/

/-- Host operations run one after another: a list's fold is its first part's, then its second part's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-- A join of five operands reads each operand's contents at that operand's own reference. -/
theorem nary5_result {Val : EltTy → Type} {x a b c e y : Ref sig .tc}
    (f : ((k : Fin 5) → ((![x, a, b, c, e] : Fin 5 → Ref sig .tc) k).ty.Contents Val) → y.ty.Contents Val) (hxs hy)
    (V : Valuation τ sig Val) :
    (nary (τ := τ) ![x, a, b, c, e] y f hxs hy).result V (Proc.devRef .tc y)
      = f (Fin.cons (V (Proc.devRef .tc x)) (Fin.cons (V (Proc.devRef .tc a)) (Fin.cons (V (Proc.devRef .tc b)) (Fin.cons (V (Proc.devRef .tc c)) (Fin.cons (V (Proc.devRef .tc e)) (fun i => i.elim0)))))) := by
  rw [nary_result]; congr 1; funext k; fin_cases k <;> rfl

/-- The host operations before the region, split after the fifteenth: the first fifteen cut the five channels out and
    shape them into slabs; the last four join the slabs, flatten the join, and reshape the two bias vectors. -/
theorem entry_split (c : Dev nD) : entry m c
    = StableHlo.after ((hostOps0 : List (HloOp τ sig (Elt Ideal))).drop 15) (StableHlo.after ((hostOps0 : List (HloOp τ sig (Elt Ideal))).take 15) (fun b => m (c, b))) := by
  show StableHlo.after hostOps0 _ = _
  rw [← after_append, List.take_append_drop]

/-- Over any contents `W` the last four operations leave, in the stacked array, the join of the five slabs, flattened; -/
theorem last4_stacked (W : Valuation τ sig (Elt Ideal)) :
    StableHlo.after ((hostOps0 : List (HloOp τ sig (Elt Ideal))).drop 15) W (Proc.devRef .tc main_v16)
      = shapeCast S262144x200 (concatenate S262144x5x40 1 [⟨S262144x1x40, W (Proc.devRef .tc main_v10)⟩, ⟨S262144x1x40, W (Proc.devRef .tc main_v11)⟩, ⟨S262144x1x40, W (Proc.devRef .tc main_v12)⟩, ⟨S262144x1x40, W (Proc.devRef .tc main_v13)⟩, ⟨S262144x1x40, W (Proc.devRef .tc main_v14)⟩]
          concatenates_S262144x1x40_S262144x1x40_S262144x1x40_S262144x1x40_S262144x1x40_S262144x5x40_d1) shapeCasts_S262144x5x40_S262144x200 := by
  simp only [hostOps0, List.drop_succ_cons, List.drop_zero, after_cons, after_nil]
  rw [reshape_result_ne (h := by decide), reshape_result_ne (h := by decide), reshape_result, nary5_result]
  rfl
/-- and they leave slab 0 as it was. -/
theorem last4_keep10 (W : Valuation τ sig (Elt Ideal)) :
    StableHlo.after ((hostOps0 : List (HloOp τ sig (Elt Ideal))).drop 15) W (Proc.devRef .tc main_v10) = W (Proc.devRef .tc main_v10) := by
  simp only [hostOps0, List.drop_succ_cons, List.drop_zero]
  after_results
/-- and they leave slab 1 as it was. -/
theorem last4_keep11 (W : Valuation τ sig (Elt Ideal)) :
    StableHlo.after ((hostOps0 : List (HloOp τ sig (Elt Ideal))).drop 15) W (Proc.devRef .tc main_v11) = W (Proc.devRef .tc main_v11) := by
  simp only [hostOps0, List.drop_succ_cons, List.drop_zero]
  after_results
/-- and they leave slab 2 as it was. -/
theorem last4_keep12 (W : Valuation τ sig (Elt Ideal)) :
    StableHlo.after ((hostOps0 : List (HloOp τ sig (Elt Ideal))).drop 15) W (Proc.devRef .tc main_v12) = W (Proc.devRef .tc main_v12) := by
  simp only [hostOps0, List.drop_succ_cons, List.drop_zero]
  after_results
/-- and they leave slab 3 as it was. -/
theorem last4_keep13 (W : Valuation τ sig (Elt Ideal)) :
    StableHlo.after ((hostOps0 : List (HloOp τ sig (Elt Ideal))).drop 15) W (Proc.devRef .tc main_v13) = W (Proc.devRef .tc main_v13) := by
  simp only [hostOps0, List.drop_succ_cons, List.drop_zero]
  after_results
/-- and they leave slab 4 as it was. -/
theorem last4_keep14 (W : Valuation τ sig (Elt Ideal)) :
    StableHlo.after ((hostOps0 : List (HloOp τ sig (Elt Ideal))).drop 15) W (Proc.devRef .tc main_v14) = W (Proc.devRef .tc main_v14) := by
  simp only [hostOps0, List.drop_succ_cons, List.drop_zero]
  after_results
/-- The region finds slab 0 holding state channel 0. -/
theorem entry_slab0 (c : Dev nD) : entryAt m c main_v10 = Cert.IdmStacked.slab0 (m ((c : Thread nD τ).loc main_arg0)) := by
  show StableHlo.after hostOps0 (fun b => m (c, b)) (Proc.devRef .tc main_v10) = _
  after_results
  rfl
/-- The region finds slab 1 holding state channel 2. -/
theorem entry_slab2 (c : Dev nD) : entryAt m c main_v11 = Cert.IdmStacked.slab2 (m ((c : Thread nD τ).loc main_arg0)) := by
  show StableHlo.after hostOps0 (fun b => m (c, b)) (Proc.devRef .tc main_v11) = _
  after_results
  rfl
/-- The region finds slab 2 holding state channel 3. -/
theorem entry_slab3 (c : Dev nD) : entryAt m c main_v12 = Cert.IdmStacked.slab3 (m ((c : Thread nD τ).loc main_arg0)) := by
  show StableHlo.after hostOps0 (fun b => m (c, b)) (Proc.devRef .tc main_v12) = _
  after_results
  rfl
/-- The region finds slab 3 holding state channel 5. -/
theorem entry_slab5 (c : Dev nD) : entryAt m c main_v13 = Cert.IdmStacked.slab5 (m ((c : Thread nD τ).loc main_arg0)) := by
  show StableHlo.after hostOps0 (fun b => m (c, b)) (Proc.devRef .tc main_v13) = _
  after_results
  rfl
/-- The region finds slab 4 holding state channel 6. -/
theorem entry_slab6 (c : Dev nD) : entryAt m c main_v14 = Cert.IdmStacked.slab6 (m ((c : Thread nD τ).loc main_arg0)) := by
  show StableHlo.after hostOps0 (fun b => m (c, b)) (Proc.devRef .tc main_v14) = _
  after_results
  rfl

/-- The region finds the stacked array holding the five kept channels side by side. -/
theorem entry_stacked (c : Dev nD) : entryAt m c main_v16 = Cert.IdmStacked.stacked (m ((c : Thread nD τ).loc main_arg0)) := by
  have e0 : entry m c (Proc.devRef .tc main_v10) = _ := entry_slab0 m c
  have e2 : entry m c (Proc.devRef .tc main_v11) = _ := entry_slab2 m c
  have e3 : entry m c (Proc.devRef .tc main_v12) = _ := entry_slab3 m c
  have e5 : entry m c (Proc.devRef .tc main_v13) = _ := entry_slab5 m c
  have e6 : entry m c (Proc.devRef .tc main_v14) = _ := entry_slab6 m c
  show entry m c (Proc.devRef .tc main_v16) = _
  rw [entry_split] at e0 e2 e3 e5 e6 ⊢
  generalize StableHlo.after ((hostOps0 : List (HloOp τ sig (Elt Ideal))).take 15) (fun b => m (c, b)) = W at e0 e2 e3 e5 e6 ⊢
  rw [last4_keep10] at e0; rw [last4_keep11] at e2; rw [last4_keep12] at e3; rw [last4_keep13] at e5; rw [last4_keep14] at e6
  rw [last4_stacked, e0, e2, e3, e5, e6]
  rfl

/-- The region finds the first layer's bias as a row, -/
theorem entry_bias1 (c : Dev nD) : entryAt m c main_v17 = shapeCast S1x100 (m ((c : Thread nD τ).loc main_arg4)) shapeCasts_S100_S1x100 := by
  show StableHlo.after hostOps0 (fun b => m (c, b)) (Proc.devRef .tc main_v17) = _
  after_results
  rfl

/-- and the second layer's likewise. -/
theorem entry_bias2 (c : Dev nD) : entryAt m c main_v18 = shapeCast S1x40 (m ((c : Thread nD τ).loc main_arg6)) shapeCasts_S40_S1x40 := by
  show StableHlo.after hostOps0 (fun b => m (c, b)) (Proc.devRef .tc main_v18) = _
  after_results
  rfl

/-! ## A block's entries as entries of the argument arrays -/

/-- Grid point `t` works on samples `4096 t … 4096 t + 4095`. -/
abbrev sampleOf (t : Fin cfg0.N) (r : Fin 4096) : Fin 262144 :=
  ⟨4096 * t.val + r.val, by have h := t.isLt; have hN : cfg0.N = 64 := N_0; have := r.isLt; omega⟩

/-- The windows over sample rows move one block of rows per grid point and never along the second axis; -/
theorem rows_move : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- the windows over the two layers' weights and biases never move. -/
theorem layers_stay : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The feature block's rows are the samples' feature rows. -/
theorem feat_read (c : Dev nD) (t : Fin cfg0.N) (r : Fin 4096) (k : Fin 128) :
    View.ld (blockAt m c 2 t) allFeat (ix2 r k) = m ((c : Thread nD τ).loc main_arg2) (ix2 (sampleOf t r) k) := by
  show entryAt m c main_arg2 (((cfg0.win 2).blk t).view.emb (allFeat.idx (ix2 r k))) = _
  rw [entry_arg2]
  obtain ⟨-, -, -, -, e0, e1, -⟩ := rows_move t
  refine congrArg _ (funext fun a => Fin.ext ?_)
  match a with
  | ⟨0, _⟩ => show win0_2.index t (0 : Fin 2) * 4096 + 1 * (0 + 1 * r.val) = 4096 * t.val + r.val; omega
  | ⟨1, _⟩ => show win0_2.index t (1 : Fin 2) * 128 + 1 * (0 + 1 * k.val) = k.val; omega

/-- Columns 0 … 39 of the state block are state channel 0 of the block's samples. -/
theorem chan0_read (c : Dev nD) (t : Fin cfg0.N) (r : Fin 4096) (q : Fin 40) :
    View.ld (blockAt m c 0 t) chan0 (ix2 r q) = m ((c : Thread nD τ).loc main_arg0) (ix3 (sampleOf t r) q 0) := by
  show entryAt m c main_v16 (((cfg0.win 0).blk t).view.emb (chan0.idx (ix2 r q))) = _
  rw [entry_stacked]
  obtain ⟨e0, e1, -⟩ := rows_move t
  refine Cert.IdmStacked.stacked_chan0 _ _ (sampleOf t r) q ?_ ?_
  · show win0_0.index t (0 : Fin 2) * 4096 + 1 * (0 + 1 * r.val) = 4096 * t.val + r.val; omega
  · show win0_0.index t (1 : Fin 2) * 200 + 1 * (0 + 1 * q.val) = 0 + q.val; omega

/-- Columns 40 … 79 of the state block are state channel 2 of the block's samples. -/
theorem chan1_read (c : Dev nD) (t : Fin cfg0.N) (r : Fin 4096) (q : Fin 40) :
    View.ld (blockAt m c 0 t) chan1 (ix2 r q) = m ((c : Thread nD τ).loc main_arg0) (ix3 (sampleOf t r) q 2) := by
  show entryAt m c main_v16 (((cfg0.win 0).blk t).view.emb (chan1.idx (ix2 r q))) = _
  rw [entry_stacked]
  obtain ⟨e0, e1, -⟩ := rows_move t
  refine Cert.IdmStacked.stacked_chan1 _ _ (sampleOf t r) q ?_ ?_
  · show win0_0.index t (0 : Fin 2) * 4096 + 1 * (0 + 1 * r.val) = 4096 * t.val + r.val; omega
  · show win0_0.index t (1 : Fin 2) * 200 + 1 * (40 + 1 * q.val) = 40 + q.val; omega

/-- Columns 80 … 119 of the state block are state channel 3 of the block's samples. -/
theorem chan2_read (c : Dev nD) (t : Fin cfg0.N) (r : Fin 4096) (q : Fin 40) :
    View.ld (blockAt m c 0 t) chan2 (ix2 r q) = m ((c : Thread nD τ).loc main_arg0) (ix3 (sampleOf t r) q 3) := by
  show entryAt m c main_v16 (((cfg0.win 0).blk t).view.emb (chan2.idx (ix2 r q))) = _
  rw [entry_stacked]
  obtain ⟨e0, e1, -⟩ := rows_move t
  refine Cert.IdmStacked.stacked_chan2 _ _ (sampleOf t r) q ?_ ?_
  · show win0_0.index t (0 : Fin 2) * 4096 + 1 * (0 + 1 * r.val) = 4096 * t.val + r.val; omega
  · show win0_0.index t (1 : Fin 2) * 200 + 1 * (80 + 1 * q.val) = 80 + q.val; omega

/-- Columns 120 … 159 of the state block are state channel 5 of the block's samples. -/
theorem chan3_read (c : Dev nD) (t : Fin cfg0.N) (r : Fin 4096) (q : Fin 40) :
    View.ld (blockAt m c 0 t) chan3 (ix2 r q) = m ((c : Thread nD τ).loc main_arg0) (ix3 (sampleOf t r) q 5) := by
  show entryAt m c main_v16 (((cfg0.win 0).blk t).view.emb (chan3.idx (ix2 r q))) = _
  rw [entry_stacked]
  obtain ⟨e0, e1, -⟩ := rows_move t
  refine Cert.IdmStacked.stacked_chan3 _ _ (sampleOf t r) q ?_ ?_
  · show win0_0.index t (0 : Fin 2) * 4096 + 1 * (0 + 1 * r.val) = 4096 * t.val + r.val; omega
  · show win0_0.index t (1 : Fin 2) * 200 + 1 * (120 + 1 * q.val) = 120 + q.val; omega

/-- Columns 160 … 199 of the state block are state channel 6 of the block's samples. -/
theorem chan4_read (c : Dev nD) (t : Fin cfg0.N) (r : Fin 4096) (q : Fin 40) :
    View.ld (blockAt m c 0 t) chan4 (ix2 r q) = m ((c : Thread nD τ).loc main_arg0) (ix3 (sampleOf t r) q 6) := by
  show entryAt m c main_v16 (((cfg0.win 0).blk t).view.emb (chan4.idx (ix2 r q))) = _
  rw [entry_stacked]
  obtain ⟨e0, e1, -⟩ := rows_move t
  refine Cert.IdmStacked.stacked_chan4 _ _ (sampleOf t r) q ?_ ?_
  · show win0_0.index t (0 : Fin 2) * 4096 + 1 * (0 + 1 * r.val) = 4096 * t.val + r.val; omega
  · show win0_0.index t (1 : Fin 2) * 200 + 1 * (160 + 1 * q.val) = 160 + q.val; omega

/-- Column 0 of the parameter block is driver parameter 0 of the block's samples. -/
theorem par0_read (c : Dev nD) (t : Fin cfg0.N) (r : Fin 4096) :
    View.ld (blockAt m c 1 t) par0 (ix2 r 0) = m ((c : Thread nD τ).loc main_arg1) (ix2 (sampleOf t r) 0) := by
  show entryAt m c main_arg1 (((cfg0.win 1).blk t).view.emb (par0.idx (ix2 r 0))) = _
  rw [entry_arg1]
  obtain ⟨-, -, e0, e1, -⟩ := rows_move t
  refine congrArg _ (funext fun a => Fin.ext ?_)
  match a with
  | ⟨0, _⟩ => show win0_1.index t (0 : Fin 2) * 4096 + 1 * (0 + 1 * r.val) = 4096 * t.val + r.val; omega
  | ⟨1, _⟩ => show win0_1.index t (1 : Fin 2) * 5 + 1 * (0 + 1 * 0) = 0; omega

/-- Column 1 of the parameter block is driver parameter 1 of the block's samples. -/
theorem par1_read (c : Dev nD) (t : Fin cfg0.N) (r : Fin 4096) :
    View.ld (blockAt m c 1 t) par1 (ix2 r 0) = m ((c : Thread nD τ).loc main_arg1) (ix2 (sampleOf t r) 1) := by
  show entryAt m c main_arg1 (((cfg0.win 1).blk t).view.emb (par1.idx (ix2 r 0))) = _
  rw [entry_arg1]
  obtain ⟨-, -, e0, e1, -⟩ := rows_move t
  refine congrArg _ (funext fun a => Fin.ext ?_)
  match a with
  | ⟨0, _⟩ => show win0_1.index t (0 : Fin 2) * 4096 + 1 * (0 + 1 * r.val) = 4096 * t.val + r.val; omega
  | ⟨1, _⟩ => show win0_1.index t (1 : Fin 2) * 5 + 1 * (1 + 1 * 0) = 1; omega

/-- Column 2 of the parameter block is driver parameter 2 of the block's samples. -/
theorem par2_read (c : Dev nD) (t : Fin cfg0.N) (r : Fin 4096) :
    View.ld (blockAt m c 1 t) par2 (ix2 r 0) = m ((c : Thread nD τ).loc main_arg1) (ix2 (sampleOf t r) 2) := by
  show entryAt m c main_arg1 (((cfg0.win 1).blk t).view.emb (par2.idx (ix2 r 0))) = _
  rw [entry_arg1]
  obtain ⟨-, -, e0, e1, -⟩ := rows_move t
  refine congrArg _ (funext fun a => Fin.ext ?_)
  match a with
  | ⟨0, _⟩ => show win0_1.index t (0 : Fin 2) * 4096 + 1 * (0 + 1 * r.val) = 4096 * t.val + r.val; omega
  | ⟨1, _⟩ => show win0_1.index t (1 : Fin 2) * 5 + 1 * (2 + 1 * 0) = 2; omega

/-- Column 3 of the parameter block is driver parameter 3 of the block's samples. -/
theorem par3_read (c : Dev nD) (t : Fin cfg0.N) (r : Fin 4096) :
    View.ld (blockAt m c 1 t) par3 (ix2 r 0) = m ((c : Thread nD τ).loc main_arg1) (ix2 (sampleOf t r) 3) := by
  show entryAt m c main_arg1 (((cfg0.win 1).blk t).view.emb (par3.idx (ix2 r 0))) = _
  rw [entry_arg1]
  obtain ⟨-, -, e0, e1, -⟩ := rows_move t
  refine congrArg _ (funext fun a => Fin.ext ?_)
  match a with
  | ⟨0, _⟩ => show win0_1.index t (0 : Fin 2) * 4096 + 1 * (0 + 1 * r.val) = 4096 * t.val + r.val; omega
  | ⟨1, _⟩ => show win0_1.index t (1 : Fin 2) * 5 + 1 * (3 + 1 * 0) = 3; omega

/-- Column 4 of the parameter block is driver parameter 4 of the block's samples. -/
theorem par4_read (c : Dev nD) (t : Fin cfg0.N) (r : Fin 4096) :
    View.ld (blockAt m c 1 t) par4 (ix2 r 0) = m ((c : Thread nD τ).loc main_arg1) (ix2 (sampleOf t r) 4) := by
  show entryAt m c main_arg1 (((cfg0.win 1).blk t).view.emb (par4.idx (ix2 r 0))) = _
  rw [entry_arg1]
  obtain ⟨-, -, e0, e1, -⟩ := rows_move t
  refine congrArg _ (funext fun a => Fin.ext ?_)
  match a with
  | ⟨0, _⟩ => show win0_1.index t (0 : Fin 2) * 4096 + 1 * (0 + 1 * r.val) = 4096 * t.val + r.val; omega
  | ⟨1, _⟩ => show win0_1.index t (1 : Fin 2) * 5 + 1 * (4 + 1 * 0) = 4; omega

/-- The first layer's weights are staged whole. -/
theorem w1_read (c : Dev nD) (t : Fin cfg0.N) (k : Fin 128) (j : Fin 100) :
    View.ld (blockAt m c 3 t) allW1 (ix2 k j) = m ((c : Thread nD τ).loc main_arg3) (ix2 k j) := by
  show entryAt m c main_arg3 (((cfg0.win 3).blk t).view.emb (allW1.idx (ix2 k j))) = _
  rw [entry_arg3]
  obtain ⟨e0, e1, -⟩ := layers_stay t
  refine congrArg _ (funext fun a => Fin.ext ?_)
  match a with
  | ⟨0, _⟩ => show win0_3.index t (0 : Fin 2) * 128 + 1 * (0 + 1 * k.val) = k.val; omega
  | ⟨1, _⟩ => show win0_3.index t (1 : Fin 2) * 100 + 1 * (0 + 1 * j.val) = j.val; omega

/-- The second layer's weights are staged whole. -/
theorem w2_read (c : Dev nD) (t : Fin cfg0.N) (j : Fin 100) (q : Fin 40) :
    View.ld (blockAt m c 5 t) allW2 (ix2 j q) = m ((c : Thread nD τ).loc main_arg5) (ix2 j q) := by
  show entryAt m c main_arg5 (((cfg0.win 5).blk t).view.emb (allW2.idx (ix2 j q))) = _
  rw [entry_arg5]
  obtain ⟨-, -, -, -, e0, e1, -⟩ := layers_stay t
  refine congrArg _ (funext fun a => Fin.ext ?_)
  match a with
  | ⟨0, _⟩ => show win0_5.index t (0 : Fin 2) * 100 + 1 * (0 + 1 * j.val) = j.val; omega
  | ⟨1, _⟩ => show win0_5.index t (1 : Fin 2) * 40 + 1 * (0 + 1 * q.val) = q.val; omega

/-- The first layer's bias row is the bias vector. -/
theorem bias1_read (c : Dev nD) (t : Fin cfg0.N) (j : Fin 100) :
    View.ld (blockAt m c 4 t) allB1 (ix2 0 j) = m ((c : Thread nD τ).loc main_arg4) (ix1 j) := by
  show entryAt m c main_v17 (((cfg0.win 4).blk t).view.emb (allB1.idx (ix2 0 j))) = _
  rw [entry_bias1]
  obtain ⟨-, -, e0, e1, -⟩ := layers_stay t
  refine shapeCast_apply (s := S100) (t := S1x100) _ _ _ (ix1 j) ?_
  show (S100.rowMajor (ix1 j)).val = (S1x100.rowMajor (((cfg0.win 4).blk t).view.emb (allB1.idx (ix2 0 j)))).val
  rw [Shape.rowMajor_val_one, Shape.rowMajor_val_two]
  show j.val = (win0_4.index t (0 : Fin 2) * 1 + 1 * (0 + 1 * 0)) * 100 + (win0_4.index t (1 : Fin 2) * 100 + 1 * (0 + 1 * j.val)); omega

/-- The second layer's bias row is the bias vector. -/
theorem bias2_read (c : Dev nD) (t : Fin cfg0.N) (q : Fin 40) :
    View.ld (blockAt m c 6 t) allB2 (ix2 0 q) = m ((c : Thread nD τ).loc main_arg6) (ix1 q) := by
  show entryAt m c main_v18 (((cfg0.win 6).blk t).view.emb (allB2.idx (ix2 0 q))) = _
  rw [entry_bias2]
  obtain ⟨-, -, -, -, -, -, e0, e1⟩ := layers_stay t
  refine shapeCast_apply (s := S40) (t := S1x40) _ _ _ (ix1 q) ?_
  show (S40.rowMajor (ix1 q)).val = (S1x40.rowMajor (((cfg0.win 6).blk t).view.emb (allB2.idx (ix2 0 q)))).val
  rw [Shape.rowMajor_val_one, Shape.rowMajor_val_two]
  show q.val = (win0_6.index t (0 : Fin 2) * 1 + 1 * (0 + 1 * 0)) * 40 + (win0_6.index t (1 : Fin 2) * 40 + 1 * (0 + 1 * q.val)); omega

/-! ## What each grid point writes back, and the arrays after the last -/

/-- An offset of zero on both axes. -/
theorem zero_off : (![0, 0] : Fin 2 → Nat) = fun _ => 0 := funext fun a => by fin_cases a <;> rfl

/-- The gates of every sample at every position, as the pipeline's second output array. -/
def gatesArr (c : Dev nD) : (⟨S262144x40, .f32⟩ : BufTy).Contents (Elt Ideal) :=
  fun i => Cert.Idm.gateAt (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

/-- The mixed accelerations of every sample at every position, as the pipeline's first output array. -/
def mixedArr (c : Dev nD) : (⟨S262144x40, .f32⟩ : BufTy).Contents (Elt Ideal) :=
  fun i => Cert.Idm.blend (Cert.Idm.gateAt (m ((c : Thread nD τ).loc main_arg2)) (m ((c : Thread nD τ).loc main_arg3)) (m ((c : Thread nD τ).loc main_arg4)) (m ((c : Thread nD τ).loc main_arg5)) (m ((c : Thread nD τ).loc main_arg6)) (i 0) (i 1))
    (Cert.Idm.accelAt (m ((c : Thread nD τ).loc main_arg0)) (m ((c : Thread nD τ).loc main_arg1)) 2 3 (i 0) (i 1)) (Cert.Idm.accelAt (m ((c : Thread nD τ).loc main_arg0)) (m ((c : Thread nD τ).loc main_arg1)) 5 6 (i 0) (i 1))

/-- Entry `(r, q)` of an output block at grid point `t` is entry `(4096 t + r, q)` of the output array. -/
theorem out7_emb (t : Fin cfg0.N) (r : Fin 4096) (q : Fin 40) : ((cfg0.win 7).blk t).view.emb (ix2 r q) = ix2 (sampleOf t r) q := by
  obtain ⟨-, -, -, -, -, -, e0, e1, -⟩ := rows_move t
  refine funext fun a => Fin.ext ?_
  match a with
  | ⟨0, _⟩ => show win0_7.index t (0 : Fin 2) * 4096 + 1 * r.val = 4096 * t.val + r.val; omega
  | ⟨1, _⟩ => show win0_7.index t (1 : Fin 2) * 40 + 1 * q.val = q.val; omega
theorem out8_emb (t : Fin cfg0.N) (r : Fin 4096) (q : Fin 40) : ((cfg0.win 8).blk t).view.emb (ix2 r q) = ix2 (sampleOf t r) q := by
  obtain ⟨-, -, -, -, -, -, -, -, e0, e1⟩ := rows_move t
  refine funext fun a => Fin.ext ?_
  match a with
  | ⟨0, _⟩ => show win0_8.index t (0 : Fin 2) * 4096 + 1 * r.val = 4096 * t.val + r.val; omega
  | ⟨1, _⟩ => show win0_8.index t (1 : Fin 2) * 40 + 1 * q.val = q.val; omega

/-- What grid point `t` writes back of the gates is block `t` of the gates' array: the body's stored value at an entry is
    the gate of that sample's score, the body's loads being the argument arrays' entries for that sample. -/
theorem written_gates (c : Dev nD) (t : Fin cfg0.N) :
    (dats m 0 c).flushed 8 t = ((cfg0.win 8).blk t).view.read (Elt Ideal) (gatesArr m c) := by
  show (cfg0.win 8).cut (grid0.coords t) ((dats m 0 c).after 8 t) = _
  rw [after_8]
  unfold leftGates
  rw [View.canon_unit_zero zero_off]
  funext y
  obtain ⟨r, q, rfl⟩ : ∃ (r : Fin 4096) (q : Fin 40), y = ix2 r q := ⟨y 0, y 1, eq_ix2 y⟩
  refine (pay_gate (View.ld (blockAt m c 2 t) allFeat) (View.ld (blockAt m c 3 t) allW1) (View.ld (blockAt m c 4 t) allB1) (View.ld (blockAt m c 5 t) allW2) (View.ld (blockAt m c 6 t) allB2) r q).trans ?_
  show _ = gatesArr m c (((cfg0.win 8).blk t).view.emb (ix2 r q))
  rw [out8_emb]
  simp only [chan0_read, chan1_read, chan2_read, chan3_read, chan4_read, par0_read, par1_read, par2_read, par3_read, par4_read, feat_read, w1_read, w2_read, bias1_read, bias2_read]
  rfl

/-- What grid point `t` writes back of the mixed accelerations is block `t` of their array, likewise. -/
theorem written_mixed (c : Dev nD) (t : Fin cfg0.N) :
    (dats m 0 c).flushed 7 t = ((cfg0.win 7).blk t).view.read (Elt Ideal) (mixedArr m c) := by
  show (cfg0.win 7).cut (grid0.coords t) ((dats m 0 c).after 7 t) = _
  rw [after_7]
  unfold leftMixed
  rw [View.canon_unit_zero zero_off]
  funext y
  obtain ⟨r, q, rfl⟩ : ∃ (r : Fin 4096) (q : Fin 40), y = ix2 r q := ⟨y 0, y 1, eq_ix2 y⟩
  refine (pay_mixed (View.ld (blockAt m c 0 t) chan0) (View.ld (blockAt m c 0 t) chan1) (View.ld (blockAt m c 0 t) chan2) (View.ld (blockAt m c 0 t) chan3) (View.ld (blockAt m c 0 t) chan4)
    (View.ld (blockAt m c 1 t) par0) (View.ld (blockAt m c 1 t) par1) (View.ld (blockAt m c 1 t) par2) (View.ld (blockAt m c 1 t) par3) (View.ld (blockAt m c 1 t) par4)
    (View.ld (blockAt m c 2 t) allFeat) (View.ld (blockAt m c 3 t) allW1) (View.ld (blockAt m c 4 t) allB1) (View.ld (blockAt m c 5 t) allW2) (View.ld (blockAt m c 6 t) allB2) r q).trans ?_
  show _ = mixedArr m c (((cfg0.win 7).blk t).view.emb (ix2 r q))
  rw [out7_emb]
  simp only [chan0_read, chan1_read, chan2_read, chan3_read, chan4_read, par0_read, par1_read, par2_read, par3_read, par4_read, feat_read, w1_read, w2_read, bias1_read, bias2_read]
  rfl

/-- An entry of an output array lies in grid point `t`'s block iff its row is among the point's 4096. -/
theorem mem_rows7 (t : Fin cfg0.N) (i : S262144x40.Idx) :
    i ∈ ((cfg0.win 7).blk t).view.set ↔ ∀ a : Fin 2, win0_7.index t a * S4096x40.size a ≤ (i a).val ∧ (i a).val < win0_7.index t a * S4096x40.size a + S4096x40.size a := by
  show i ∈ ((View.whole main_v19_0).slice (win0_7.rect t)).set ↔ _
  rw [View.set_slice_whole, Rect.mem_set_unit]
  exact Iff.rfl
theorem mem_rows8 (t : Fin cfg0.N) (i : S262144x40.Idx) :
    i ∈ ((cfg0.win 8).blk t).view.set ↔ ∀ a : Fin 2, win0_8.index t a * S4096x40.size a ≤ (i a).val ∧ (i a).val < win0_8.index t a * S4096x40.size a + S4096x40.size a := by
  show i ∈ ((View.whole main_v19_1).slice (win0_8.rect t)).set ↔ _
  rw [View.set_slice_whole, Rect.mem_set_unit]
  exact Iff.rfl

/-- The grid point of a row: `row / 4096`. -/
abbrev pointOf (i : S262144x40.Idx) : Fin cfg0.N :=
  ⟨(i 0).val / 4096, by have h : (i 0).val < 262144 := (i 0).isLt; have hN : cfg0.N = 64 := N_0; omega⟩

/-- Every entry of each output array is written back by the grid point of its row. -/
theorem covered7 (i : S262144x40.Idx) : ∃ t : Fin cfg0.N, (cfg0.win 7).flush t = true ∧ i ∈ ((cfg0.win 7).blk t).view.set := by
  have h0 : (i 0).val < 262144 := (i 0).isLt
  have h1 : (i 1).val < 40 := (i 1).isLt
  have ht : (pointOf i).val = (i 0).val / 4096 := rfl
  obtain ⟨-, -, -, -, -, -, e0, e1, -⟩ := rows_move (pointOf i)
  refine ⟨pointOf i, flush0_7 _, ?_⟩
  rw [mem_rows7]
  intro a
  match a with
  | ⟨0, _⟩ => show win0_7.index (pointOf i) (0 : Fin 2) * 4096 ≤ (i 0).val ∧ (i 0).val < win0_7.index (pointOf i) (0 : Fin 2) * 4096 + 4096; omega
  | ⟨1, _⟩ => show win0_7.index (pointOf i) (1 : Fin 2) * 40 ≤ (i 1).val ∧ (i 1).val < win0_7.index (pointOf i) (1 : Fin 2) * 40 + 40; omega
theorem covered8 (i : S262144x40.Idx) : ∃ t : Fin cfg0.N, (cfg0.win 8).flush t = true ∧ i ∈ ((cfg0.win 8).blk t).view.set := by
  have h0 : (i 0).val < 262144 := (i 0).isLt
  have h1 : (i 1).val < 40 := (i 1).isLt
  have ht : (pointOf i).val = (i 0).val / 4096 := rfl
  obtain ⟨-, -, -, -, -, -, -, -, e0, e1⟩ := rows_move (pointOf i)
  refine ⟨pointOf i, flush0_8 _, ?_⟩
  rw [mem_rows8]
  intro a
  match a with
  | ⟨0, _⟩ => show win0_8.index (pointOf i) (0 : Fin 2) * 4096 ≤ (i 0).val ∧ (i 0).val < win0_8.index (pointOf i) (0 : Fin 2) * 4096 + 4096; omega
  | ⟨1, _⟩ => show win0_8.index (pointOf i) (1 : Fin 2) * 40 ≤ (i 1).val ∧ (i 1).val < win0_8.index (pointOf i) (1 : Fin 2) * 40 + 40; omega

/-- After the last grid point the pipeline's two output arrays hold the mixed accelerations and the gates. -/
theorem final_mixed (c : Dev nD) : (dats m 0 c).arrAt 7 cfg0.N = mixedArr m c :=
  (dats m 0 c).arrAt_eq_of_cover 7 (mixedArr m c) (fun t _ => written_mixed m c t) covered7
theorem final_gates (c : Dev nD) : (dats m 0 c).arrAt 8 cfg0.N = gatesArr m c :=
  (dats m 0 c).arrAt_eq_of_cover 8 (gatesArr m c) (fun t _ => written_gates m c t) covered8

/-! ## The two results -/

/-- With a trailing axis of extent one the two arrays are the specification's two results. -/
theorem mixed_result (c : Dev nD) : broadcastInDim S262144x40x1 ![0, 1] bcast_S262144x40_S262144x40x1_0_1 (mixedArr m c)
    = Cert.Idm.mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine (broadcastInDim_apply _ _ _ i (ix2 (i 0) (i 1)) (fun a => ?_)).trans rfl
  match a with
  | ⟨0, _⟩ => rfl
  | ⟨1, _⟩ => rfl
theorem gates_result (c : Dev nD) : broadcastInDim S262144x40x1 ![0, 1] bcast_S262144x40_S262144x40x1_0_1 (gatesArr m c)
    = Cert.Idm.gates (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine (broadcastInDim_apply _ _ _ i (ix2 (i 0) (i 1)) (fun a => ?_)).trans rfl
  match a with
  | ⟨0, _⟩ => rfl
  | ⟨1, _⟩ => rfl

/-- The idealized kernel's run: it terminates without fault with its first result the mixed accelerations, its second
    the gates, as the specification states them of the seven arguments, and the arguments unchanged. -/
theorem kernel_run (ρ : Dev nD → PrngReg) : θ_run defs (onTc (τ := τ) (main (F := Ideal))) ⟨m, fun _ => 0, ρ⟩ (fun r => ∀ c : Dev nD,
      r.2.mem ((c.tc : Thread nD τ).loc main_v20) = Cert.Idm.mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v21) = Cert.Idm.gates (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans ((congrArg _ (final_mixed m c)).trans (mixed_result m c)),
      (h c).2.1.trans ((congrArg _ (final_gates m c)).trans (gates_result m c)), (h c).2.2⟩) (run_results m ρ)

end Cert.IdmKernel

end
-- ==== Proof.RefIsIdm.lean ====
/-
  The reference program computes the specification.

  Read one operation at a time, the reference slices the state into its channels, broadcasts the five driver
  parameters of a sample along the positions, forms the desired gap, the two squared ratios and the clipped
  acceleration once toward the leader and once toward the merging vehicle, computes the score of a feature row by
  two affine layers, takes the logistic function of five times the score, spelled out as 1 / (1 + exp (−·)), and
  mixes the two accelerations by it. Each of these is, index by index, the scalar function of the specification.
-/
import proofs.«412750_j77360950935639_3_alg».proof.Proof.Gen.ReferenceIdeal.Read
import proofs.«412750_j77360950935639_3_alg».proof.Proof.IdmSpec
import Idealize.ShloMosaic.PureOps.Ideal
import Idealize.ShloMosaic.Lib.ValueIdx

noncomputable section

namespace Cert.IdmRef

open Cert.ReferenceIdeal Cert.ReferenceIdeal.Read Idealize.ShloMosaic Idealize.ShloMosaic.ValueIdx

variable (x0 : (⟨S262144x40x7, .f32⟩ : BufTy).Contents (Elt Ideal))
  (x1 : (⟨S262144x5, .f32⟩ : BufTy).Contents (Elt Ideal))
  (x2 : (⟨S262144x128, .f32⟩ : BufTy).Contents (Elt Ideal))
  (x3 : (⟨S128x100, .f32⟩ : BufTy).Contents (Elt Ideal))
  (x4 : (⟨S100, .f32⟩ : BufTy).Contents (Elt Ideal))
  (x5 : (⟨S100x40, .f32⟩ : BufTy).Contents (Elt Ideal))
  (x6 : (⟨S40, .f32⟩ : BufTy).Contents (Elt Ideal))

/-- The word of the float one denotes the real number one. -/
theorem one_word : Ideal.ofBits .f32 0x3F800000#32 = (1 : EReal) := by
  simp [Ideal.ofBits, Ideal.ieee, -EReal.coe_mul]; norm_num

/-! ## The state's channels: a slice of width one along the last axis reads that channel -/

theorem read_v0 (b : Fin 262144) (t : Fin 40) (u : Fin 1) :
    val_main_v0 (F := Ideal) x0 (ix3 b t u) = x0 (ix3 b t 0) := by
  rw [val_main_v0_apply]
  exact congrArg x0 (funext fun a => Fin.ext (by
    match a with
    | ⟨0, _⟩ => rfl
    | ⟨1, _⟩ => rfl
    | ⟨2, _⟩ =>
      show u.val = 0
      have hu : u.val < 1 := u.isLt
      omega))

theorem read_v1 (b : Fin 262144) (t : Fin 40) (u : Fin 1) :
    val_main_v1 (F := Ideal) x0 (ix3 b t u) = x0 (ix3 b t 2) := by
  rw [val_main_v1_apply]
  exact congrArg x0 (funext fun a => Fin.ext (by
    match a with
    | ⟨0, _⟩ => rfl
    | ⟨1, _⟩ => rfl
    | ⟨2, _⟩ =>
      show 2 + u.val = 2
      have hu : u.val < 1 := u.isLt
      omega))

theorem read_v2 (b : Fin 262144) (t : Fin 40) (u : Fin 1) :
    val_main_v2 (F := Ideal) x0 (ix3 b t u) = x0 (ix3 b t 3) := by
  rw [val_main_v2_apply]
  exact congrArg x0 (funext fun a => Fin.ext (by
    match a with
    | ⟨0, _⟩ => rfl
    | ⟨1, _⟩ => rfl
    | ⟨2, _⟩ =>
      show 3 + u.val = 3
      have hu : u.val < 1 := u.isLt
      omega))

theorem read_v33 (b : Fin 262144) (t : Fin 40) (u : Fin 1) :
    val_main_v33 (F := Ideal) x0 (ix3 b t u) = x0 (ix3 b t 5) := by
  rw [val_main_v33_apply]
  exact congrArg x0 (funext fun a => Fin.ext (by
    match a with
    | ⟨0, _⟩ => rfl
    | ⟨1, _⟩ => rfl
    | ⟨2, _⟩ =>
      show 5 + u.val = 5
      have hu : u.val < 1 := u.isLt
      omega))

theorem read_v34 (b : Fin 262144) (t : Fin 40) (u : Fin 1) :
    val_main_v34 (F := Ideal) x0 (ix3 b t u) = x0 (ix3 b t 6) := by
  rw [val_main_v34_apply]
  exact congrArg x0 (funext fun a => Fin.ext (by
    match a with
    | ⟨0, _⟩ => rfl
    | ⟨1, _⟩ => rfl
    | ⟨2, _⟩ =>
      show 6 + u.val = 6
      have hu : u.val < 1 := u.isLt
      omega))

/-! ## The driver parameters: a unit axis is inserted, one parameter is sliced out and broadcast along the positions -/

theorem read_v21 (b : Fin 262144) (t : Fin 40) (u : Fin 1) :
    val_main_v21 (F := Ideal) x1 (ix3 b t u) = x1 (ix2 b 0) := by
  rw [val_main_v21_apply, val_main_v4_apply, val_main_v3_apply]
  exact congrArg x1 (funext fun a => Fin.ext (by
    match a with
    | ⟨0, _⟩ => rfl
    | ⟨1, _⟩ => rfl))

theorem read_v9 (b : Fin 262144) (t : Fin 40) (u : Fin 1) :
    val_main_v9 (F := Ideal) x1 (ix3 b t u) = x1 (ix2 b 1) := by
  rw [val_main_v9_apply, val_main_v5_apply, val_main_v3_apply]
  exact congrArg x1 (funext fun a => Fin.ext (by
    match a with
    | ⟨0, _⟩ => rfl
    | ⟨1, _⟩ => rfl))

theorem read_v11 (b : Fin 262144) (t : Fin 40) (u : Fin 1) :
    val_main_v11 (F := Ideal) x1 (ix3 b t u) = x1 (ix2 b 2) := by
  rw [val_main_v11_apply, val_main_v6_apply, val_main_v3_apply]
  exact congrArg x1 (funext fun a => Fin.ext (by
    match a with
    | ⟨0, _⟩ => rfl
    | ⟨1, _⟩ => rfl))

theorem read_v30 (b : Fin 262144) (t : Fin 40) (u : Fin 1) :
    val_main_v30 (F := Ideal) x1 (ix3 b t u) = x1 (ix2 b 3) := by
  rw [val_main_v30_apply, val_main_v7_apply, val_main_v3_apply]
  exact congrArg x1 (funext fun a => Fin.ext (by
    match a with
    | ⟨0, _⟩ => rfl
    | ⟨1, _⟩ => rfl))

theorem read_v53 (b : Fin 262144) (t : Fin 40) (u : Fin 1) :
    val_main_v53 (F := Ideal) x1 (ix3 b t u) = x1 (ix2 b 0) := by
  rw [val_main_v53_apply, val_main_v36_apply, val_main_v35_apply]
  exact congrArg x1 (funext fun a => Fin.ext (by
    match a with
    | ⟨0, _⟩ => rfl
    | ⟨1, _⟩ => rfl))

theorem read_v41 (b : Fin 262144) (t : Fin 40) (u : Fin 1) :
    val_main_v41 (F := Ideal) x1 (ix3 b t u) = x1 (ix2 b 1) := by
  rw [val_main_v41_apply, val_main_v37_apply, val_main_v35_apply]
  exact congrArg x1 (funext fun a => Fin.ext (by
    match a with
    | ⟨0, _⟩ => rfl
    | ⟨1, _⟩ => rfl))

theorem read_v43 (b : Fin 262144) (t : Fin 40) (u : Fin 1) :
    val_main_v43 (F := Ideal) x1 (ix3 b t u) = x1 (ix2 b 2) := by
  rw [val_main_v43_apply, val_main_v38_apply, val_main_v35_apply]
  exact congrArg x1 (funext fun a => Fin.ext (by
    match a with
    | ⟨0, _⟩ => rfl
    | ⟨1, _⟩ => rfl))

theorem read_v62 (b : Fin 262144) (t : Fin 40) (u : Fin 1) :
    val_main_v62 (F := Ideal) x1 (ix3 b t u) = x1 (ix2 b 3) := by
  rw [val_main_v62_apply, val_main_v39_apply, val_main_v35_apply]
  exact congrArg x1 (funext fun a => Fin.ext (by
    match a with
    | ⟨0, _⟩ => rfl
    | ⟨1, _⟩ => rfl))

/-! ## Twice the root of the product of the two acceleration bounds, broadcast along the positions -/

theorem read_v18 (b : Fin 262144) (t : Fin 40) (u : Fin 1) :
    val_main_v18 (F := Ideal) x1 (ix3 b t u)
      = Ideal.ofBits .f32 0x40000000#32 * Ideal.sqrt (x1 (ix2 b 3) * x1 (ix2 b 4)) := by
  have e3 : idx_main_v3 (idx_main_v7 (idx_main_v18 (ix3 b t u))) = ix2 b 3 :=
    funext fun a => Fin.ext (by
      match a with
      | ⟨0, _⟩ => rfl
      | ⟨1, _⟩ => rfl)
  have e4 : idx_main_v3 (idx_main_v8 (idx_main_v18 (ix3 b t u))) = ix2 b 4 :=
    funext fun a => Fin.ext (by
      match a with
      | ⟨0, _⟩ => rfl
      | ⟨1, _⟩ => rfl)
  simp only [val_main_v18_apply, val_main_v17_apply, val_main_v16_apply, val_main_cst_apply,
    val_main_v15_apply, val_main_v14_apply, val_main_v7_apply, val_main_v8_apply, val_main_v3_apply,
    e3, e4, Ideal.ofBits_def, Ideal.mulf_def, Ideal.hostUnary_sqrt_def]

theorem read_v50 (b : Fin 262144) (t : Fin 40) (u : Fin 1) :
    val_main_v50 (F := Ideal) x1 (ix3 b t u)
      = Ideal.ofBits .f32 0x40000000#32 * Ideal.sqrt (x1 (ix2 b 3) * x1 (ix2 b 4)) := by
  have e3 : idx_main_v35 (idx_main_v39 (idx_main_v50 (ix3 b t u))) = ix2 b 3 :=
    funext fun a => Fin.ext (by
      match a with
      | ⟨0, _⟩ => rfl
      | ⟨1, _⟩ => rfl)
  have e4 : idx_main_v35 (idx_main_v40 (idx_main_v50 (ix3 b t u))) = ix2 b 4 :=
    funext fun a => Fin.ext (by
      match a with
      | ⟨0, _⟩ => rfl
      | ⟨1, _⟩ => rfl)
  simp only [val_main_v50_apply, val_main_v49_apply, val_main_v48_apply, val_main_cst_3_apply,
    val_main_v47_apply, val_main_v46_apply, val_main_v39_apply, val_main_v40_apply, val_main_v35_apply,
    e3, e4, Ideal.ofBits_def, Ideal.mulf_def, Ideal.hostUnary_sqrt_def]

/-! ## The clipped acceleration toward the leader and toward the merging vehicle -/

theorem read_v32 (b : Fin 262144) (t : Fin 40) (u : Fin 1) :
    val_main_v32 (F := Ideal) x0 x1 (ix3 b t u) = Cert.Idm.accelAt x0 x1 2 3 b t := by
  simp only [val_main_v32_apply, val_main_call0_v4_apply, val_main_call0_v3_apply, val_main_cst_2_apply,
    val_main_call0_v2_apply, val_main_call0_v1_apply, val_main_call0_v0_apply, val_main_cst_1_apply,
    val_main_v31_apply, val_main_v29_apply, val_main_v26_apply, val_main_v25_apply, val_main_cst_0_apply,
    val_main_v24_apply, val_main_v23_apply, val_main_v22_apply, val_main_v28_apply, val_main_v27_apply,
    val_main_v20_apply, val_main_v12_apply, val_main_v10_apply, val_main_v19_apply, val_main_v13_apply,
    read_v0, read_v1, read_v2, read_v21, read_v11, read_v9, read_v30, read_v18,
    Ideal.ofBits_def, Ideal.addf_def, Ideal.subf_def, Ideal.mulf_def, Ideal.hostDivf_def, Ideal.maximumf_def,
    Ideal.minimumf_def]
  rfl

theorem read_v64 (b : Fin 262144) (t : Fin 40) (u : Fin 1) :
    val_main_v64 (F := Ideal) x0 x1 (ix3 b t u) = Cert.Idm.accelAt x0 x1 5 6 b t := by
  simp only [val_main_v64_apply, val_main_call1_v4_apply, val_main_call1_v3_apply, val_main_cst_6_apply,
    val_main_call1_v2_apply, val_main_call1_v1_apply, val_main_call1_v0_apply, val_main_cst_5_apply,
    val_main_v63_apply, val_main_v61_apply, val_main_v58_apply, val_main_v57_apply, val_main_cst_4_apply,
    val_main_v56_apply, val_main_v55_apply, val_main_v54_apply, val_main_v60_apply, val_main_v59_apply,
    val_main_v52_apply, val_main_v44_apply, val_main_v42_apply, val_main_v51_apply, val_main_v45_apply,
    read_v0, read_v33, read_v34, read_v53, read_v43, read_v41, read_v62, read_v50,
    Ideal.ofBits_def, Ideal.addf_def, Ideal.subf_def, Ideal.mulf_def, Ideal.hostDivf_def, Ideal.maximumf_def,
    Ideal.minimumf_def]
  rfl

/-! ## The score: two affine layers, each a contraction plus a bias row broadcast over the samples -/

/-- The hidden layer's unit `l` of sample `b`. -/
theorem read_v68 (b : Fin 262144) (l : Fin 100) :
    val_main_v68 (F := Ideal) x2 x3 x4 (ix2 b l) = (∑ k : Fin 128, x2 (ix2 b k) * x3 (ix2 k l)) + x4 (ix1 l) := by
  have eb : idx_main_v66 (idx_main_v67 (ix2 b l)) = ix1 l :=
    funext fun a => Fin.ext (by
      match a with
      | ⟨0, _⟩ => rfl)
  have el : ∀ k : Fin 128, lidx_main_v65 (ix2 b l) k = ix2 b k := fun k =>
    funext fun a => Fin.ext (by
      match a with
      | ⟨0, _⟩ => rfl
      | ⟨1, _⟩ => rfl)
  have er : ∀ k : Fin 128, ridx_main_v65 (ix2 b l) k = ix2 k l := fun k =>
    funext fun a => Fin.ext (by
      match a with
      | ⟨0, _⟩ => rfl
      | ⟨1, _⟩ => rfl)
  rw [val_main_v68_apply, val_main_v65_apply, val_main_v67_apply, val_main_v66_apply, eb]
  simp only [el, er, Ideal.addf_def]

/-- The score of sample `b` at position `t`. -/
theorem read_v72 (b : Fin 262144) (t : Fin 40) :
    val_main_v72 (F := Ideal) x2 x3 x4 x5 x6 (ix2 b t)
      = Cert.Idm.logit (fun k => x2 (ix2 b k)) (fun k l => x3 (ix2 k l)) (fun l => x4 (ix1 l))
          (fun l s => x5 (ix2 l s)) (fun s => x6 (ix1 s)) t := by
  have eb : idx_main_v70 (idx_main_v71 (ix2 b t)) = ix1 t :=
    funext fun a => Fin.ext (by
      match a with
      | ⟨0, _⟩ => rfl)
  have el : ∀ l : Fin 100, lidx_main_v69 (ix2 b t) l = ix2 b l := fun l =>
    funext fun a => Fin.ext (by
      match a with
      | ⟨0, _⟩ => rfl
      | ⟨1, _⟩ => rfl)
  have er : ∀ l : Fin 100, ridx_main_v69 (ix2 b t) l = ix2 l t := fun l =>
    funext fun a => Fin.ext (by
      match a with
      | ⟨0, _⟩ => rfl
      | ⟨1, _⟩ => rfl)
  rw [val_main_v72_apply, val_main_v69_apply, val_main_v71_apply, val_main_v70_apply, eb]
  simp only [el, er, read_v68, Ideal.addf_def]
  rfl

/-! ## The gate: the logistic function, spelled with the word of the float one -/

theorem read_v80 (b : Fin 262144) (t : Fin 40) :
    val_main_v80 (F := Ideal) x2 x3 x4 x5 x6 (ix2 b t) = Cert.Idm.gateAt x2 x3 x4 x5 x6 b t := by
  simp only [val_main_v80_apply, val_main_v79_apply, val_main_cst_9_apply, val_main_v78_apply, val_main_v77_apply,
    val_main_cst_8_apply, val_main_v76_apply, val_main_v75_apply, val_main_v74_apply, val_main_v73_apply,
    val_main_cst_7_apply, read_v72, Ideal.ofBits_def, Ideal.hostDivf_def, Ideal.addf_def, Ideal.mulf_def,
    Ideal.hostUnary_exp_def, Ideal.hostNegf_def, Ideal.negf_def, one_word]
  rfl

/-- The reshape to a trailing unit axis reads the same sample and position. -/
theorem read_v81 (b : Fin 262144) (t : Fin 40) (u : Fin 1) :
    val_main_v81 (F := Ideal) x2 x3 x4 x5 x6 (ix3 b t u) = Cert.Idm.gateAt x2 x3 x4 x5 x6 b t := by
  have e : idx_main_v81 (ix3 b t u) = ix2 b t :=
    funext fun a => Fin.ext (by
      have ht : t.val < 40 := t.isLt
      have hu : u.val < 1 := u.isLt
      match a with
      | ⟨0, _⟩ =>
        show ((b.val * 40 + t.val) * 1 + u.val) / 40 = b.val
        omega
      | ⟨1, _⟩ =>
        show ((b.val * 40 + t.val) * 1 + u.val) % 40 = t.val
        omega)
  rw [val_main_v81_apply, e, read_v80]

/-! ## The two results -/

/-- The reference's second result is the array of gates. -/
theorem ref_gates : val_main_v81 (F := Ideal) x2 x3 x4 x5 x6 = Cert.Idm.gates x2 x3 x4 x5 x6 := by
  funext i
  obtain ⟨b, t, u, rfl⟩ : ∃ (b : Fin 262144) (t : Fin 40) (u : Fin 1), i = ix3 b t u := ⟨i 0, i 1, i 2, eq_ix3 i⟩
  exact read_v81 x2 x3 x4 x5 x6 b t u

/-- The reference's first result is the array of mixed accelerations. -/
theorem ref_mixed : val_main_v86 (F := Ideal) x0 x1 x2 x3 x4 x5 x6 = Cert.Idm.mixed x0 x1 x2 x3 x4 x5 x6 := by
  funext i
  obtain ⟨b, t, u, rfl⟩ : ∃ (b : Fin 262144) (t : Fin 40) (u : Fin 1), i = ix3 b t u := ⟨i 0, i 1, i 2, eq_ix3 i⟩
  simp only [val_main_v86_apply, val_main_v82_apply, val_main_v85_apply, val_main_v84_apply, val_main_v83_apply,
    val_main_cst_10_apply, read_v81, read_v32, read_v64, Ideal.ofBits_def, Ideal.addf_def, Ideal.subf_def,
    Ideal.mulf_def]
  rfl

end Cert.IdmRef

end
-- ==== Proof.lean ====
/-
  The proof of the certificate's claim. The kernel stages, for blocks of 4096 samples, five channels of a driving state,
  five driver parameters and a feature row per sample, computes the intelligent-driver-model acceleration toward the
  leader and toward the merging vehicle, clipped, and mixes the two by a logistic gate of a two-layer score of the
  features; the reference computes the same two results with whole-array operations.

  The three frames: each kernel program is its host operations, one pipelined region and two more host operations, run
  by the pipeline rule with the body's run at every grid point (the modules `IdealEntry`, `IdealBody`, `IdealRun` for
  the idealized program, written for any float instance; the word-level program's text is the same, so its three
  modules `BitsEntry`, `BitsBody`, `BitsRun` are those with the namespace changed); the reference's frame is its run.
  The idealized kernel is the kernel's own text read over the extended reals: the ideal pass rewrote nothing.
  The value: over the extended reals both programs' results are the arrays `Cert.Idm.mixed` and `Cert.Idm.gates` of the
  seven arguments (`IdmSpec`) — the kernel's by `IdealValue` over `PayloadIsIdm` and `StackedChannels`, the reference's
  by `RefIsIdm` over its run read one operation at a time. No law of arithmetic beyond the two programs' common
  spelling is used, so the precondition that the inputs are finite is never opened.
-/
import proofs.«412750_j77360950935639_3_alg».proof.Defs
import proofs.«412750_j77360950935639_3_alg».proof.Proof.Gen.Kernel
import proofs.«412750_j77360950935639_3_alg».proof.Proof.Gen.KernelIdeal
import proofs.«412750_j77360950935639_3_alg».proof.Proof.Gen.ReferenceIdeal
import proofs.«412750_j77360950935639_3_alg».proof.Proof.Gen.Pre_finite_inputs
import proofs.«412750_j77360950935639_3_alg».proof.Proof.Gen.ReferenceIdeal.Run
import proofs.«412750_j77360950935639_3_alg».proof.Proof.Gen.ReferenceIdeal.Read
import proofs.«412750_j77360950935639_3_alg».proof.Proof.BitsRun
import proofs.«412750_j77360950935639_3_alg».proof.Proof.IdealRun
import proofs.«412750_j77360950935639_3_alg».proof.Proof.IdealValue
import proofs.«412750_j77360950935639_3_alg».proof.Proof.RefIsIdm
import Idealize.ShloMosaic.Adequacy
import Idealize.ShloMosaic.Init

noncomputable section

namespace Cert.Proof

open Idealize.ShloMosaic Idealize.SL.Sem

/-- The word-level kernel runs to its end without fault and leaves its arguments unchanged. -/
theorem frame_kernel : Cert.frame_Kernel (hKernel := Cert.Kernel.Gen.facts) (hPre_finite_inputs := Cert.Pre_finite_inputs.Gen.facts) :=
  fun m ρ _ => Cert.Kernel.Staged.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Staged.frame m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the seven arguments both idealized programs end with the mixed accelerations and the
    gates of those arguments: the kernel by its value proof, the reference by its run, whose two terms are the same two
    arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Idm.mixed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Idm.gates (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.IdmKernel.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v86_eq, Cert.IdmRef.ref_mixed,
      (hagree c).1, (hagree c).2.1, (hagree c).2.2.1, (hagree c).2.2.2.1, (hagree c).2.2.2.2.1, (hagree c).2.2.2.2.2.1, (hagree c).2.2.2.2.2.2]
  · rw [(h c).2.1, Cert.ReferenceIdeal.Read.val_main_v81_eq, Cert.IdmRef.ref_gates,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
